-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x32000 : Shape := ⟨3, ![4, 2048, 32000]⟩
abbrev S4x2048 : Shape := ⟨2, ![4, 2048]⟩
abbrev S32000x801 : Shape := ⟨2, ![32000, 801]⟩
abbrev S_ : Shape := ⟨0, ![]⟩
abbrev S8192 : Shape := ⟨1, ![8192]⟩

class Facts : Prop where
  bcast_S_S4x2048x32000 : S_.BroadcastsInDim S4x2048x32000 (![] : Fin 0 → Fin S4x2048x32000.rank)
  reducesTo_S4x2048x32000_S_d0_1_2 : S4x2048x32000.ReducesTo [0, 1, 2] S_
  h_S_ : 0 < S_.numel
  bcast_S_S4x2048 : S_.BroadcastsInDim S4x2048 (![] : Fin 0 → Fin S4x2048.rank)
  reducesTo_S4x2048_S_d0_1 : S4x2048.ReducesTo [0, 1] S_
  bcast_S_S32000x801 : S_.BroadcastsInDim S32000x801 (![] : Fin 0 → Fin S32000x801.rank)
  reducesTo_S32000x801_S_d0_1 : S32000x801.ReducesTo [0, 1] S_
  shapeCasts_S4x2048_S8192 : S4x2048.ShapeCasts S8192
  reducesTo_S8192_S_d0 : S8192.ReducesTo [0] S_

variable [Facts]

def fn_part2 {F : FTy → Type} [FloatOps F] (main_arg1 : FVec F S4x2048 .f32) (main_v30 : IVec S_ 1) (main_v32 : IVec S32000x801 1) : IVec S_ 1 :=
  let main_c_13 : IVec S_ 1 := constantI S_ 1 1#1
  let main_v33 : IVec S_ 1 := (fun x v => Host.reduce IntOp.andi x v reducesTo_S32000x801_S_d0_1 h_S_) main_v32 main_c_13
  let main_v34 : IVec S_ 1 := andi main_v30 main_v33
  let main_v35 : FVec F S8192 .f32 := shapeCast S8192 main_arg1 shapeCasts_S4x2048_S8192
  let main_cst_14 : FVec F S_ .f32 := constant S_ .f32 0x00000000#32
  let main_v36 : FVec F S_ .f32 := (fun x v => Host.reduceAdd x v reducesTo_S8192_S_d0 h_S_) main_v35 main_cst_14
  let main_cst_15 : FVec F S_ .f32 := constant S_ .f32 0x00000000#32
  let main_v37 : IVec S_ 1 := cmpf .une main_v36 main_cst_15
  let main_v38 : IVec S_ 1 := andi main_v34 main_v37
  main_v38

def fn_part1 {F : FTy → Type} [FloatOps F] (main_arg1 : FVec F S4x2048 .f32) (main_arg4 : IVec S4x2048 32) (main_arg5 : IVec S32000x801 32) (main_v13 : IVec S_ 1) (main_v16 : IVec S32000x801 1) : IVec S_ 1 :=
  let main_c_5 : IVec S_ 1 := constantI S_ 1 1#1
  let main_v17 : IVec S_ 1 := (fun x v => Host.reduce IntOp.andi x v reducesTo_S32000x801_S_d0_1 h_S_) main_v16 main_c_5
  let main_v18 : IVec S_ 1 := andi main_v13 main_v17
  let main_c_6 : IVec S_ 32 := constantI S_ 32 0#32
  let main_v19 : IVec S4x2048 32 := broadcastInDim S4x2048 ![] bcast_S_S4x2048 main_c_6
  let main_v20 : IVec S4x2048 1 := cmpi .sge main_arg4 main_v19
  let main_c_7 : IVec S_ 1 := constantI S_ 1 1#1
  let main_v21 : IVec S_ 1 := (fun x v => Host.reduce IntOp.andi x v reducesTo_S4x2048_S_d0_1 h_S_) main_v20 main_c_7
  let main_v22 : IVec S_ 1 := andi main_v18 main_v21
  let main_c_8 : IVec S_ 32 := constantI S_ 32 32000#32
  let main_v23 : IVec S4x2048 32 := broadcastInDim S4x2048 ![] bcast_S_S4x2048 main_c_8
  let main_v24 : IVec S4x2048 1 := cmpi .slt main_arg4 main_v23
  let main_c_9 : IVec S_ 1 := constantI S_ 1 1#1
  let main_v25 : IVec S_ 1 := (fun x v => Host.reduce IntOp.andi x v reducesTo_S4x2048_S_d0_1 h_S_) main_v24 main_c_9
  let main_v26 : IVec S_ 1 := andi main_v22 main_v25
  let main_c_10 : IVec S_ 32 := constantI S_ 32 0#32
  let main_v27 : IVec S32000x801 32 := broadcastInDim S32000x801 ![] bcast_S_S32000x801 main_c_10
  let main_v28 : IVec S32000x801 1 := cmpi .sge main_arg5 main_v27
  let main_c_11 : IVec S_ 1 := constantI S_ 1 1#1
  let main_v29 : IVec S_ 1 := (fun x v => Host.reduce IntOp.andi x v reducesTo_S32000x801_S_d0_1 h_S_) main_v28 main_c_11
  let main_v30 : IVec S_ 1 := andi main_v26 main_v29
  let main_c_12 : IVec S_ 32 := constantI S_ 32 32000#32
  let main_v31 : IVec S32000x801 32 := broadcastInDim S32000x801 ![] bcast_S_S32000x801 main_c_12
  let main_v32 : IVec S32000x801 1 := cmpi .slt main_arg5 main_v31
  fn_part2 (F := F) main_arg1 main_v30 main_v32

def fn {F : FTy → Type} [FloatOps F] (main_arg0 : FVec F S4x2048x32000 .f32) (main_arg1 : FVec F S4x2048 .f32) (main_arg2 : FVec F S32000x801 .f32) (main_arg3 : FVec F S32000x801 .f32) (main_arg4 : IVec S4x2048 32) (main_arg5 : IVec S32000x801 32) : IVec S_ 1 :=
  let main_v0 : FVec F S4x2048x32000 .f32 := Host.absf main_arg0
  let main_cst : FVec F S_ .f32 := constant S_ .f32 0x7F800000#32
  let main_v1 : FVec F S4x2048x32000 .f32 := broadcastInDim S4x2048x32000 ![] bcast_S_S4x2048x32000 main_cst
  let main_v2 : IVec S4x2048x32000 1 := cmpf .olt main_v0 main_v1
  let main_c : IVec S_ 1 := constantI S_ 1 1#1
  let main_v3 : IVec S_ 1 := (fun x v => Host.reduce IntOp.andi x v reducesTo_S4x2048x32000_S_d0_1_2 h_S_) main_v2 main_c
  let main_v4 : FVec F S4x2048 .f32 := Host.absf main_arg1
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_c_1 : IVec S_ 1 := constantI S_ 1 1#1
  let main_v7 : IVec S_ 1 := (fun x v => Host.reduce IntOp.andi x v reducesTo_S4x2048_S_d0_1 h_S_) main_v6 main_c_1
  let main_v8 : IVec S_ 1 := andi main_v3 main_v7
  let main_v9 : FVec F S32000x801 .f32 := Host.absf main_arg2
  let main_cst_2 : FVec F S_ .f32 := constant S_ .f32 0x7F800000#32
  let main_v10 : FVec F S32000x801 .f32 := broadcastInDim S32000x801 ![] bcast_S_S32000x801 main_cst_2
  let main_v11 : IVec S32000x801 1 := cmpf .olt main_v9 main_v10
  let main_c_3 : IVec S_ 1 := constantI S_ 1 1#1
  let main_v12 : IVec S_ 1 := (fun x v => Host.reduce IntOp.andi x v reducesTo_S32000x801_S_d0_1 h_S_) main_v11 main_c_3
  let main_v13 : IVec S_ 1 := andi main_v8 main_v12
  let main_v14 : FVec F S32000x801 .f32 := Host.absf main_arg3
  let main_cst_4 : FVec F S_ .f32 := constant S_ .f32 0x7F800000#32
  let main_v15 : FVec F S32000x801 .f32 := broadcastInDim S32000x801 ![] bcast_S_S32000x801 main_cst_4
  let main_v16 : IVec S32000x801 1 := cmpf .olt main_v14 main_v15
  fn_part1 (F := F) main_arg1 main_arg4 main_arg5 main_v13 main_v16
-- ==== Kernel.lean ====
abbrev S4x2048x32000 : Shape := ⟨3, ![4, 2048, 32000]⟩
abbrev S4x2048 : Shape := ⟨2, ![4, 2048]⟩
abbrev S32000x801 : Shape := ⟨2, ![32000, 801]⟩
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S8192x801 : Shape := ⟨2, ![8192, 801]⟩
abbrev S8192x801x1 : Shape := ⟨3, ![8192, 801, 1]⟩
abbrev S8192x801x2 : Shape := ⟨3, ![8192, 801, 2]⟩
abbrev S8192x2 : Shape := ⟨2, ![8192, 2]⟩
abbrev S1x1 : Shape := ⟨2, ![1, 1]⟩
abbrev S512x3200 : Shape := ⟨2, ![512, 3200]⟩
abbrev S512 : Shape := ⟨1, ![512]⟩
abbrev S512x1 : Shape := ⟨2, ![512, 1]⟩
abbrev S1 : Shape := ⟨1, ![1]⟩

abbrev nBuf : Space → Nat
  | .hbm => 110
  | .vmem => 6
  | .smem => 0
  | _ => 0

abbrev bufTy : (tb : Table) → Fin (tcTables nBuf tb) → BufTy
  | .hbm, ⟨0, _⟩ => ⟨S4x2048x32000, .f32⟩
  | .hbm, ⟨1, _⟩ => ⟨S4x2048, .f32⟩
  | .hbm, ⟨2, _⟩ => ⟨S32000x801, .f32⟩
  | .hbm, ⟨3, _⟩ => ⟨S32000x801, .f32⟩
  | .hbm, ⟨4, _⟩ => ⟨S4x2048, .i32⟩
  | .hbm, ⟨5, _⟩ => ⟨S32000x801, .i32⟩
  | .hbm, ⟨6, _⟩ => ⟨S8192x32000, .f32⟩
  | .hbm, ⟨7, _⟩ => ⟨S8192, .i32⟩
  | .hbm, ⟨8, _⟩ => ⟨S8192, .f32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192x801, .f32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x1, .i32⟩
  | .hbm, ⟨26, _⟩ => ⟨S8192x801, .f32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192x801, .i32⟩
  | .hbm, ⟨36, _⟩ => ⟨S_, .f32⟩
  | .hbm, ⟨37, _⟩ => ⟨S8192x801, .f32⟩
  | .hbm, ⟨38, _⟩ => ⟨S8192x801, .f32⟩
  | .hbm, ⟨39, _⟩ => ⟨S_, .f32⟩
  | .hbm, ⟨40, _⟩ => ⟨S8192x801, .f32⟩
  | .hbm, ⟨41, _⟩ => ⟨S8192x801, .f32⟩
  | .hbm, ⟨42, _⟩ => ⟨S8192x801, .f32⟩
  | .hbm, ⟨43, _⟩ => ⟨S_, .f32⟩
  | .hbm, ⟨44, _⟩ => ⟨S8192x801, .f32⟩
  | .hbm, ⟨45, _⟩ => ⟨S8192x801, .f32⟩
  | .hbm, ⟨46, _⟩ => ⟨S8192x801, .f32⟩
  | .hbm, ⟨47, _⟩ => ⟨S_, .f32⟩
  | .hbm, ⟨48, _⟩ => ⟨S8192x801, .f32⟩
  | .hbm, ⟨49, _⟩ => ⟨S8192x801, .f32⟩
  | .hbm, ⟨50, _⟩ => ⟨S8192x801, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x801, .f32⟩
  | .hbm, ⟨55, _⟩ => ⟨S8192x801, .f32⟩
  | .hbm, ⟨56, _⟩ => ⟨S_, .f32⟩
  | .hbm, ⟨57, _⟩ => ⟨S_, .f32⟩
  | .hbm, ⟨58, _⟩ => ⟨S8192, .i32⟩
  | .hbm, ⟨59, _⟩ => ⟨S8192x1, .i32⟩
  | .hbm, ⟨60, _⟩ => ⟨S8192x801, .i32⟩
  | .hbm, ⟨61, _⟩ => ⟨S_, .f32⟩
  | .hbm, ⟨62, _⟩ => ⟨S8192x32000, .f32⟩
  | .hbm, ⟨63, _⟩ => ⟨S_, .f32⟩
  | .hbm, ⟨64, _⟩ => ⟨S8192x801, .f32⟩
  | .hbm, ⟨65, _⟩ => ⟨S8192x801, .f32⟩
  | .hbm, ⟨66, _⟩ => ⟨S_, .i32⟩
  | .hbm, ⟨67, _⟩ => ⟨S8192x801, .i32⟩
  | .hbm, ⟨68, _⟩ => ⟨S8192x801, .i1⟩
  | .hbm, ⟨69, _⟩ => ⟨S_, .i32⟩
  | .hbm, ⟨70, _⟩ => ⟨S8192x801, .i32⟩
  | .hbm, ⟨71, _⟩ => ⟨S8192x801, .i32⟩
  | .hbm, ⟨72, _⟩ => ⟨S8192x801, .i32⟩
  | .hbm, ⟨73, _⟩ => ⟨S_, .i32⟩
  | .hbm, ⟨74, _⟩ => ⟨S8192x801, .i32⟩
  | .hbm, ⟨75, _⟩ => ⟨S8192x801, .i1⟩
  | .hbm, ⟨76, _⟩ => ⟨S_, .i32⟩
  | .hbm, ⟨77, _⟩ => ⟨S8192x801, .i32⟩
  | .hbm, ⟨78, _⟩ => ⟨S8192x801, .i32⟩
  | .hbm, ⟨79, _⟩ => ⟨S8192x801, .i32⟩
  | .hbm, ⟨80, _⟩ => ⟨S8192x801x1, .i32⟩
  | .hbm, ⟨81, _⟩ => ⟨S8192x801x1, .i32⟩
  | .hbm, ⟨82, _⟩ => ⟨S8192x801x2, .i32⟩
  | .hbm, ⟨83, _⟩ => ⟨S8192x32000, .f32⟩
  | .hbm, ⟨84, _⟩ => ⟨S8192, .i32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S_, .i32⟩
  | .hbm, ⟨89, _⟩ => ⟨S8192, .i32⟩
  | .hbm, ⟨90, _⟩ => ⟨S8192, .i1⟩
  | .hbm, ⟨91, _⟩ => ⟨S_, .i32⟩
  | .hbm, ⟨92, _⟩ => ⟨S8192, .i32⟩
  | .hbm, ⟨93, _⟩ => ⟨S8192, .i32⟩
  | .hbm, ⟨94, _⟩ => ⟨S8192, .i32⟩
  | .hbm, ⟨95, _⟩ => ⟨S_, .i32⟩
  | .hbm, ⟨96, _⟩ => ⟨S8192, .i32⟩
  | .hbm, ⟨97, _⟩ => ⟨S8192, .i1⟩
  | .hbm, ⟨98, _⟩ => ⟨S_, .i32⟩
  | .hbm, ⟨99, _⟩ => ⟨S8192, .i32⟩
  | .hbm, ⟨100, _⟩ => ⟨S8192, .i32⟩
  | .hbm, ⟨101, _⟩ => ⟨S8192, .i32⟩
  | .hbm, ⟨102, _⟩ => ⟨S8192x1, .i32⟩
  | .hbm, ⟨103, _⟩ => ⟨S8192x1, .i32⟩
  | .hbm, ⟨104, _⟩ => ⟨S8192x2, .i32⟩
  | .hbm, ⟨105, _⟩ => ⟨S8192x32000, .f32⟩
  | .hbm, ⟨106, _⟩ => ⟨S1x1, .f32⟩
  | .hbm, ⟨107, _⟩ => ⟨S_, .f32⟩
  | .hbm, ⟨108, _⟩ => ⟨S_, .f32⟩
  | .hbm, ⟨109, _⟩ => ⟨S_, .f32⟩
  | .local _ .vmem, ⟨0, _⟩ => ⟨S512x3200, .f32⟩
  | .local _ .vmem, ⟨1, _⟩ => ⟨S512x3200, .f32⟩
  | .local _ .vmem, ⟨2, _⟩ => ⟨S512x3200, .f32⟩
  | .local _ .vmem, ⟨3, _⟩ => ⟨S512x3200, .f32⟩
  | .local _ .vmem, ⟨4, _⟩ => ⟨S1x1, .f32⟩
  | .local _ .vmem, ⟨5, _⟩ => ⟨S1x1, .f32⟩
  | _, _ => ⟨S4x2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_c_12 : Ref sig .tc := ⟨.hbm, 66, rfl⟩
abbrev main_v46 : Ref sig .tc := ⟨.hbm, 67, rfl⟩
abbrev main_v47 : Ref sig .tc := ⟨.hbm, 68, rfl⟩
abbrev main_c_13 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_14 : Ref sig .tc := ⟨.hbm, 73, rfl⟩
abbrev main_v51 : Ref sig .tc := ⟨.hbm, 74, rfl⟩
abbrev main_v52 : Ref sig .tc := ⟨.hbm, 75, rfl⟩
abbrev main_c_15 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_16 : Ref sig .tc := ⟨.hbm, 85, rfl⟩
abbrev main_v61 : Ref sig .tc := ⟨.hbm, 86, rfl⟩
abbrev main_v62 : Ref sig .tc := ⟨.hbm, 87, rfl⟩
abbrev main_c_17 : Ref sig .tc := ⟨.hbm, 88, rfl⟩
abbrev main_v63 : Ref sig .tc := ⟨.hbm, 89, rfl⟩
abbrev main_v64 : Ref sig .tc := ⟨.hbm, 90, rfl⟩
abbrev main_c_18 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_19 : Ref sig .tc := ⟨.hbm, 95, rfl⟩
abbrev main_v68 : Ref sig .tc := ⟨.hbm, 96, rfl⟩
abbrev main_v69 : Ref sig .tc := ⟨.hbm, 97, rfl⟩
abbrev main_c_20 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![16, 10], ![false, false]⟩

def k0_cond2 (i : grid0.Coords) : BitVec 1 :=
  let arg0 : BitVec 32 := BitVec.ofNat 32 (i 0).val
  let c15_i32 : BitVec 32 := 15#32
  let v19 : BitVec 1 := Scalar.cmpi .eq arg0 c15_i32
  let arg1 : BitVec 32 := BitVec.ofNat 32 (i 1).val
  let c9_i32 : BitVec 32 := 9#32
  let v20 : BitVec 1 := Scalar.cmpi .eq arg1 c9_i32
  let v21 : BitVec 1 := Scalar.andi v19 v20
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  shapeCasts_S4x2048x32000_S8192x32000 : S4x2048x32000.ShapeCasts S8192x32000
  shapeCasts_S4x2048_S8192 : S4x2048.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S8192x801 : S_.BroadcastsInDim S8192x801 (![] : Fin 0 → Fin S8192x801.rank)
  reducesTo_S8192x801_S8192_d1 : S8192x801.ReducesTo [1] S8192
  h_S_ : 0 < S_.numel
  bcast_S8192x1_S8192x801_0_1 : S8192x1.BroadcastsInDim S8192x801 (![0, 1] : Fin 2 → Fin S8192x801.rank)
  reducesTo_S8192_S_d0 : S8192.ReducesTo [0] S_
  bcast_S_S8192x32000 : S_.BroadcastsInDim S8192x32000 (![] : Fin 0 → Fin S8192x32000.rank)
  bcast_S8192x801_S8192x801x1_0_1 : S8192x801.BroadcastsInDim S8192x801x1 (![0, 1] : Fin 2 → Fin S8192x801x1.rank)
  concatenates_S8192x801x1_S8192x801x1_S8192x801x2_d2 : Shape.Concatenates [S8192x801x1, S8192x801x1] S8192x801x2 2
  concatenates_S8192x1_S8192x1_S8192x2_d1 : Shape.Concatenates [S8192x1, S8192x1] S8192x2 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x3200_S512x3200_0_0 : ∀ a, (![0, 0] : Fin 2 → Nat) a + S512x3200.size a ≤ S512x3200.size a
  h_S512x3200 : 0 < S512x3200.numel
  shapeCasts_S512x3200_S512x3200 : S512x3200.ShapeCasts S512x3200
  reduces_S512x3200_S512 : S512x3200.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  gather_S32000x801_S8192x1_S8192x801_1_0_n_n_0_1_1801_wf : GatherDims.WF S32000x801 S8192x1 S8192x801 [1] [0] [] [0] [] 1 ![1, 801]
  scatter_S8192x32000_S8192x801x2_S8192x801_n_01_01_2_wf : ScatterDims.WF S8192x32000 S8192x801x2 S8192x801 [] [0, 1] [0, 1] 2
  scatter_S8192x32000_S8192x2_S8192_n_01_01_1_wf : ScatterDims.WF S8192x32000 S8192x2 S8192 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3200.size a ≤ S8192x32000.size a
  hwx0_0 : ∀ i : grid0.Coords, EltTy.bits .f32 = 32 ∨ (Rect.block (s := S8192x32000) S512x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3200.size a ≤ S8192x32000.size a
  hwx0_1 : ∀ i : grid0.Coords, EltTy.bits .f32 = 32 ∨ (Rect.block (s := S8192x32000) S512x3200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S32000x801_S8192x1_S8192x801_1_0_n_n_0_1_1801 : GatherDims S32000x801 S8192x1 S8192x801 where
  offsetDims := [1]
  collapsedSliceDims := [0]
  operandBatchingDims := []
  startIndicesBatchingDims := []
  startIndexMap := [0]
  indexVectorDim := 1
  sliceSizes := ![1, 801]
  wf := gather_S32000x801_S8192x1_S8192x801_1_0_n_n_0_1_1801_wf
def scatter_S8192x32000_S8192x801x2_S8192x801_n_01_01_2 : ScatterDims S8192x32000 S8192x801x2 S8192x801 where
  updateWindowDims := []
  insertedWindowDims := [0, 1]
  scatterDimsToOperandDims := [0, 1]
  indexVectorDim := 2
  wf := scatter_S8192x32000_S8192x801x2_S8192x801_n_01_01_2_wf
def scatter_S8192x32000_S8192x2_S8192_n_01_01_1 : ScatterDims S8192x32000 S8192x2 S8192 where
  updateWindowDims := []
  insertedWindowDims := [0, 1]
  scatterDimsToOperandDims := [0, 1]
  indexVectorDim := 1
  wf := scatter_S8192x32000_S8192x2_S8192_n_01_01_1_wf

abbrev win0_0 : Pipeline.Window sig grid0 :=
  Pipeline.Window.ofSpec (Memref.whole main_v0) S512x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v76) S512x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v77) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x32000 : Shape := ⟨3, ![4, 2048, 32000]⟩
abbrev S4x2048 : Shape := ⟨2, ![4, 2048]⟩
abbrev S32000x801 : Shape := ⟨2, ![32000, 801]⟩
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S8192x801 : Shape := ⟨2, ![8192, 801]⟩
abbrev S8192x801x1 : Shape := ⟨3, ![8192, 801, 1]⟩
abbrev S1 : Shape := ⟨1, ![1]⟩
abbrev S1x1x1 : Shape := ⟨3, ![1, 1, 1]⟩
abbrev S8192x1x1 : Shape := ⟨3, ![8192, 1, 1]⟩

abbrev nBuf : Space → Nat
  | .hbm => 119
  | .vmem => 0
  | .smem => 0
  | _ => 0

abbrev bufTy : (tb : Table) → Fin (tcTables nBuf tb) → BufTy
  | .hbm, ⟨0, _⟩ => ⟨S4x2048x32000, .f32⟩
  | .hbm, ⟨1, _⟩ => ⟨S4x2048, .f32⟩
  | .hbm, ⟨2, _⟩ => ⟨S32000x801, .f32⟩
  | .hbm, ⟨3, _⟩ => ⟨S32000x801, .f32⟩
  | .hbm, ⟨4, _⟩ => ⟨S4x2048, .i32⟩
  | .hbm, ⟨5, _⟩ => ⟨S32000x801, .i32⟩
  | .hbm, ⟨6, _⟩ => ⟨S8192x32000, .f32⟩
  | .hbm, ⟨7, _⟩ => ⟨S8192, .i32⟩
  | .hbm, ⟨8, _⟩ => ⟨S8192, .f32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192x801, .f32⟩
  | .hbm, ⟨18, _⟩ => ⟨S_, .f32⟩
  | .hbm, ⟨19, _⟩ => ⟨S8192x801, .f32⟩
  | .hbm, ⟨20, _⟩ => ⟨S8192x801, .f32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S8192x801, .f32⟩
  | .hbm, ⟨30, _⟩ => ⟨S_, .f32⟩
  | .hbm, ⟨31, _⟩ => ⟨S8192x801, .f32⟩
  | .hbm, ⟨32, _⟩ => ⟨S8192x801, .f32⟩
  | .hbm, ⟨33, _⟩ => ⟨S8192x801, .f32⟩
  | .hbm, ⟨34, _⟩ => ⟨S_, .f32⟩
  | .hbm, ⟨35, _⟩ => ⟨S8192x801, .f32⟩
  | .hbm, ⟨36, _⟩ => ⟨S8192x801, .f32⟩
  | .hbm, ⟨37, _⟩ => ⟨S8192x801, .f32⟩
  | .hbm, ⟨38, _⟩ => ⟨S_, .f32⟩
  | .hbm, ⟨39, _⟩ => ⟨S8192x801, .f32⟩
  | .hbm, ⟨40, _⟩ => ⟨S8192x801, .f32⟩
  | .hbm, ⟨41, _⟩ => ⟨S8192x801, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x801, .f32⟩
  | .hbm, ⟨46, _⟩ => ⟨S8192x801, .f32⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S8192, .i32⟩
  | .hbm, ⟨54, _⟩ => ⟨S8192x1, .i32⟩
  | .hbm, ⟨55, _⟩ => ⟨S8192x801, .i32⟩
  | .hbm, ⟨56, _⟩ => ⟨S_, .i32⟩
  | .hbm, ⟨57, _⟩ => ⟨S8192x801, .i32⟩
  | .hbm, ⟨58, _⟩ => ⟨S8192x801, .i1⟩
  | .hbm, ⟨59, _⟩ => ⟨S_, .i32⟩
  | .hbm, ⟨60, _⟩ => ⟨S8192x801, .i32⟩
  | .hbm, ⟨61, _⟩ => ⟨S8192x801, .i32⟩
  | .hbm, ⟨62, _⟩ => ⟨S8192x801, .i32⟩
  | .hbm, ⟨63, _⟩ => ⟨S8192x801x1, .i32⟩
  | .hbm, ⟨64, _⟩ => ⟨S1, .i32⟩
  | .hbm, ⟨65, _⟩ => ⟨S_, .i32⟩
  | .hbm, ⟨66, _⟩ => ⟨S8192x801x1, .i32⟩
  | .hbm, ⟨67, _⟩ => ⟨S8192x801x1, .i1⟩
  | .hbm, ⟨68, _⟩ => ⟨S1x1x1, .i32⟩
  | .hbm, ⟨69, _⟩ => ⟨S8192x801x1, .i32⟩
  | .hbm, ⟨70, _⟩ => ⟨S8192x801x1, .i1⟩
  | .hbm, ⟨71, _⟩ => ⟨S8192x801x1, .i1⟩
  | .hbm, ⟨72, _⟩ => ⟨S_, .i1⟩
  | .hbm, ⟨73, _⟩ => ⟨S8192x801, .i1⟩
  | .hbm, ⟨74, _⟩ => ⟨S8192x801, .f32⟩
  | .hbm, ⟨75, _⟩ => ⟨S_, .f32⟩
  | .hbm, ⟨76, _⟩ => ⟨S8192x801, .f32⟩
  | .hbm, ⟨77, _⟩ => ⟨S8192x801, .f32⟩
  | .hbm, ⟨78, _⟩ => ⟨S_, .f32⟩
  | .hbm, ⟨79, _⟩ => ⟨S_, .f32⟩
  | .hbm, ⟨80, _⟩ => ⟨S8192x801, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S8192x1, .i32⟩
  | .hbm, ⟨86, _⟩ => ⟨S_, .i32⟩
  | .hbm, ⟨87, _⟩ => ⟨S8192x1, .i32⟩
  | .hbm, ⟨88, _⟩ => ⟨S8192x1, .i1⟩
  | .hbm, ⟨89, _⟩ => ⟨S_, .i32⟩
  | .hbm, ⟨90, _⟩ => ⟨S8192x1, .i32⟩
  | .hbm, ⟨91, _⟩ => ⟨S8192x1, .i32⟩
  | .hbm, ⟨92, _⟩ => ⟨S8192x1, .i32⟩
  | .hbm, ⟨93, _⟩ => ⟨S8192x1x1, .i32⟩
  | .hbm, ⟨94, _⟩ => ⟨S1, .i32⟩
  | .hbm, ⟨95, _⟩ => ⟨S_, .i32⟩
  | .hbm, ⟨96, _⟩ => ⟨S8192x1x1, .i32⟩
  | .hbm, ⟨97, _⟩ => ⟨S8192x1x1, .i1⟩
  | .hbm, ⟨98, _⟩ => ⟨S1x1x1, .i32⟩
  | .hbm, ⟨99, _⟩ => ⟨S8192x1x1, .i32⟩
  | .hbm, ⟨100, _⟩ => ⟨S8192x1x1, .i1⟩
  | .hbm, ⟨101, _⟩ => ⟨S8192x1x1, .i1⟩
  | .hbm, ⟨102, _⟩ => ⟨S_, .i1⟩
  | .hbm, ⟨103, _⟩ => ⟨S8192x1, .i1⟩
  | .hbm, ⟨104, _⟩ => ⟨S8192x1, .f32⟩
  | .hbm, ⟨105, _⟩ => ⟨S_, .f32⟩
  | .hbm, ⟨106, _⟩ => ⟨S8192x1, .f32⟩
  | .hbm, ⟨107, _⟩ => ⟨S8192x1, .f32⟩
  | .hbm, ⟨108, _⟩ => ⟨S8192, .f32⟩
  | .hbm, ⟨109, _⟩ => ⟨S8192, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S4x2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call0_c : Ref sig .tc := ⟨.hbm, 56, rfl⟩
abbrev main_call0_v0 : Ref sig .tc := ⟨.hbm, 57, rfl⟩
abbrev main_call0_v1 : Ref sig .tc := ⟨.hbm, 58, rfl⟩
abbrev main_call0_c_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_c_1 : Ref sig .tc := ⟨.hbm, 64, rfl⟩
abbrev main_call0_c_2 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_3 : Ref sig .tc := ⟨.hbm, 72, rfl⟩
abbrev main_call0_v12 : Ref sig .tc := ⟨.hbm, 73, rfl⟩
abbrev main_call0_v13 : Ref sig .tc := ⟨.hbm, 74, rfl⟩
abbrev main_call0_cst : Ref sig .tc := ⟨.hbm, 75, rfl⟩
abbrev main_call0_v14 : Ref sig .tc := ⟨.hbm, 76, rfl⟩
abbrev main_v39 : Ref sig .tc := ⟨.hbm, 77, rfl⟩
abbrev main_cst_9 : Ref sig .tc := ⟨.hbm, 78, rfl⟩
abbrev main_v40 : Ref sig .tc := ⟨.hbm, 79, rfl⟩
abbrev main_v41 : Ref sig .tc := ⟨.hbm, 80, rfl⟩
abbrev main_cst_10 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_call1_c : Ref sig .tc := ⟨.hbm, 86, rfl⟩
abbrev main_call1_v0 : Ref sig .tc := ⟨.hbm, 87, rfl⟩
abbrev main_call1_v1 : Ref sig .tc := ⟨.hbm, 88, rfl⟩
abbrev main_call1_c_0 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_c_1 : Ref sig .tc := ⟨.hbm, 94, rfl⟩
abbrev main_call1_c_2 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_c_3 : Ref sig .tc := ⟨.hbm, 102, rfl⟩
abbrev main_call1_v12 : Ref sig .tc := ⟨.hbm, 103, rfl⟩
abbrev main_call1_v13 : Ref sig .tc := ⟨.hbm, 104, rfl⟩
abbrev main_call1_cst : Ref sig .tc := ⟨.hbm, 105, rfl⟩
abbrev main_call1_v14 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_cst_11 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_cst_12 : Ref sig .tc := ⟨.hbm, 114, rfl⟩
abbrev main_v52 : Ref sig .tc := ⟨.hbm, 115, rfl⟩
abbrev main_cst_13 : Ref sig .tc := ⟨.hbm, 116, rfl⟩
abbrev main_v53 : Ref sig .tc := ⟨.hbm, 117, rfl⟩
abbrev main_v54 : Ref sig .tc := ⟨.hbm, 118, rfl⟩

abbrev nD : Nat := 1
abbrev τ : Topo := Topo.v7x

variable {F : FTy → Type} [FloatOps F]

class Facts₀ : Prop where
  shapeCasts_S4x2048x32000_S8192x32000 : S4x2048x32000.ShapeCasts S8192x32000
  shapeCasts_S4x2048_S8192 : S4x2048.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S8192x801 : S_.BroadcastsInDim S8192x801 (![] : Fin 0 → Fin S8192x801.rank)
  reducesTo_S8192x801_S8192_d1 : S8192x801.ReducesTo [1] S8192
  h_S_ : 0 < S_.numel
  bcast_S8192x1_S8192x801_0_1 : S8192x1.BroadcastsInDim S8192x801 (![0, 1] : Fin 2 → Fin S8192x801.rank)
  shapeCasts_S8192x801_S8192x801x1 : S8192x801.ShapeCasts S8192x801x1
  bcast_S_S8192x801x1 : S_.BroadcastsInDim S8192x801x1 (![] : Fin 0 → Fin S8192x801x1.rank)
  bcast_S1_S1x1x1_2 : S1.BroadcastsInDim S1x1x1 (![2] : Fin 1 → Fin S1x1x1.rank)
  bcast_S1x1x1_S8192x801x1_0_1_2 : S1x1x1.BroadcastsInDim S8192x801x1 (![0, 1, 2] : Fin 3 → Fin S8192x801x1.rank)
  reducesTo_S8192x801x1_S8192x801_d2 : S8192x801x1.ReducesTo [2] S8192x801
  reducesTo_S8192_S_d0 : S8192.ReducesTo [0] S_
  reducesTo_S8192x801_S_d0_1 : S8192x801.ReducesTo [0, 1] S_
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  gather_S32000x801_S8192x1_S8192x801_1_0_n_n_0_1_1801_wf : GatherDims.WF S32000x801 S8192x1 S8192x801 [1] [0] [] [0] [] 1 ![1, 801]
  gather_S8192x32000_S8192x801x1_S8192x801_n_1_0_0_1_2_11_wf : GatherDims.WF S8192x32000 S8192x801x1 S8192x801 [] [1] [0] [1] [0] 2 ![1, 1]
  gather_S8192x32000_S8192x1x1_S8192x1_n_1_0_0_1_2_11_wf : GatherDims.WF S8192x32000 S8192x1x1 S8192x1 [] [1] [0] [1] [0] 2 ![1, 1]

variable [Facts₀]

def gather_S32000x801_S8192x1_S8192x801_1_0_n_n_0_1_1801 : GatherDims S32000x801 S8192x1 S8192x801 where
  offsetDims := [1]
  collapsedSliceDims := [0]
  operandBatchingDims := []
  startIndicesBatchingDims := []
  startIndexMap := [0]
  indexVectorDim := 1
  sliceSizes := ![1, 801]
  wf := gather_S32000x801_S8192x1_S8192x801_1_0_n_n_0_1_1801_wf
def gather_S8192x32000_S8192x801x1_S8192x801_n_1_0_0_1_2_11 : GatherDims S8192x32000 S8192x801x1 S8192x801 where
  offsetDims := []
  collapsedSliceDims := [1]
  operandBatchingDims := [0]
  startIndicesBatchingDims := [0]
  startIndexMap := [1]
  indexVectorDim := 2
  sliceSizes := ![1, 1]
  wf := gather_S8192x32000_S8192x801x1_S8192x801_n_1_0_0_1_2_11_wf
def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.Region.lean ====
/-
  What the accumulating kernel leaves in its [1, 1] result. The grid has 16 × 10 = 160 points; at each the body adds
  to a one-entry accumulator the sum over a [512, 3200] block of `lp` times the same block of the spread weights
  (512 row sums of 3200 products, then their sum), the accumulator set to zero at the first point and copied to the
  result at the last. So the result holds the sum over the 160 points of the blocks' dot products.
-/
import proofs.«413760_j5755256177154_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.WS

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Entry (r, l) of a [512, 3200] block. -/
def rl (r : Fin 512) (l : Fin 3200) : S512x3200.Idx := fun a => match a with
  | ⟨0, _⟩ => r
  | ⟨1, _⟩ => l

/-- The dot product of two [512, 3200] blocks. -/
def blockDot (x0 x1 : Vec Ideal S512x3200 .f32) : EReal :=
  ∑ r : Fin 512, ∑ l : Fin 3200, (x0 (rl r l) : EReal) * (x1 (rl r l) : EReal)

/-- The block of `lp` and the block of the spread weights that grid point `t` reads. -/
abbrev xblk (c : Dev nD) (t : Fin cfg0.N) : Vec Ideal S512x3200 .f32 := iblk m c 0 t
abbrev wblk (c : Dev nD) (t : Fin cfg0.N) : Vec Ideal S512x3200 .f32 := iblk m c 1 t

/-- The reset stores the zero entry. -/
private theorem pay1_apply (j : S1x1.Idx) : k0_pay1 (F := Ideal) j = 0 := by
  unfold k0_pay1
  exact (congrFun (shapeCast_self _ _) j).trans Ideal.ofBits_zero_f32

/-- A row's sum over the 3200 lanes. -/
private theorem rowSum (v : FVec Ideal S512x3200 .f32) (r : Fin 512) :
    multiReduction (F := Ideal) .add [1] S512 v 0x00000000#32 reduces_S512x3200_S512 (.inl rfl) rfl (ValueIdx.ix1 r)
      = ∑ l : Fin 3200, v (rl r l) :=
  (Ideal.multiReduction_add_single v 0x00000000#32 reduces_S512x3200_S512 (.inl rfl) rfl (ValueIdx.ix1 r)).trans
    (Finset.sum_congr rfl fun l _ => congrArg v (funext fun a => match a with
      | ⟨0, _⟩ => Fin.ext rfl
      | ⟨1, _⟩ => Fin.ext rfl))

/-- The sum of the 512 row sums, held as a [512, 1] column. -/
private theorem colSum (w : FVec Ideal S512x1 .f32) (u : Fin 1) :
    multiReduction (F := Ideal) .add [0] S1 w 0x00000000#32 reduces_S512x1_S1 (.inl rfl) rfl (ValueIdx.ix1 u)
      = ∑ r : Fin 512, w (ValueIdx.ix2 r u) :=
  (Ideal.multiReduction_add_single w 0x00000000#32 reduces_S512x1_S1 (.inl rfl) rfl (ValueIdx.ix1 u)).trans
    (Finset.sum_congr rfl fun r _ => congrArg w (funext fun a => match a with
      | ⟨0, _⟩ => Fin.ext rfl
      | ⟨1, _⟩ => Fin.ext rfl))

/-- A [512] vector read as a [512, 1] column. -/
private theorem cast_col (v : FVec Ideal S512 .f32) (r : Fin 512) (u : Fin 1) :
    shapeCast S512x1 v shapeCasts_S512_S512x1 (ValueIdx.ix2 r u) = v (ValueIdx.ix1 r) :=
  shapeCast_apply v _ _ _ (by
    have hu : u.val = 0 := by omega
    rw [Shape.rowMajor_val_one, Shape.rowMajor_val_two]
    show r.val = r.val * 1 + u.val
    omega)

/-- A [1] vector read as a [1, 1] array. -/
private theorem cast_11 (v : FVec Ideal S1 .f32) (j : S1x1.Idx) :
    shapeCast S1x1 v shapeCasts_S1_S1x1 j = v (ValueIdx.ix1 0) :=
  shapeCast_apply v _ _ _ (by
    have h0 : (j 0).val = 0 := by have := ValueIdx.idx2_lt0 j; omega
    have h1 : (j 1).val = 0 := by have := ValueIdx.idx2_lt1 j; omega
    rw [Shape.rowMajor_val_one, Shape.rowMajor_val_two]
    show (0 : Nat) = (j 0).val * 1 + (j 1).val
    omega)

/-- The update adds the two blocks' dot product to the accumulator's one entry. -/
private theorem pay2_apply (x0 x1 : Vec Ideal S512x3200 .f32) (acc : Vec Ideal S1x1 .f32) (j : S1x1.Idx) :
    k0_pay2 x0 x1 acc j = acc j + blockDot x0 x1 := by
  unfold k0_pay2
  refine (congrFun (shapeCast_self _ _) j).trans ?_
  refine (ValueIdx.addf_apply _ _ _).trans (congrArg (acc j + ·) ?_)
  refine (cast_11 _ j).trans ?_
  refine (colSum _ 0).trans ?_
  unfold blockDot
  refine Finset.sum_congr rfl fun r _ => ?_
  refine (cast_col _ r 0).trans ?_
  refine (rowSum _ r).trans ?_
  refine Finset.sum_congr rfl fun l _ => ?_
  refine (ValueIdx.mulf_apply _ _ _).trans ?_
  exact congrArg₂ (· * ·) (congrFun (shapeCast_self x0 _) _) (congrFun (shapeCast_self x1 _) _)

private theorem hz : (![0, 0] : Fin 2 → Nat) = fun _ => 0 := funext fun a => by fin_cases a <;> rfl

/-- A middle point leaves in the accumulator the update of what it found there. -/
private theorem sB {F : FTy → Type} [FloatOps F] (c : Dev nD) (i : grid0.Coords) (a2 : Memref sig .tc .vmem S512x3200 .f32) (h2 : a2.IsWhole)
    (a3 : Memref sig .tc .vmem S512x3200 .f32) (h3 : a3.IsWhole) (a4 : Memref sig .tc .vmem S1x1 .f32) (h4 : a4.IsWhole)
    (a5 : Memref sig .tc .vmem S1x1 .f32) (h5 : a5.IsWhole) (hc0 : ¬cond0_0 i) (hc1 : ¬cond0_1 i)
    (x0 x1 : Vec F S512x3200 .f32) (xs0 : Vec F S1x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h5.read_unread,
    View.ld_unit_zero (S := S512x3200) hz, View.ld_unit_zero (S := S1x1) hz]

/-- The last point leaves in the accumulator the update of what it found there, -/
private theorem sC {F : FTy → Type} [FloatOps F] (c : Dev nD) (i : grid0.Coords) (a2 : Memref sig .tc .vmem S512x3200 .f32) (h2 : a2.IsWhole)
    (a3 : Memref sig .tc .vmem S512x3200 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 x1 : Vec F S512x3200 .f32) (xs0 : Vec F S1x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread,
    View.ld_unit_zero (S := S512x3200) hz, View.ld_unit_zero (S := S1x1) hz]

/-- and copies that to the result's block. -/
private theorem oC {F : FTy → Type} [FloatOps F] (c : Dev nD) (i : grid0.Coords) (a2 : Memref sig .tc .vmem S512x3200 .f32) (h2 : a2.IsWhole)
    (a3 : Memref sig .tc .vmem S512x3200 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 x1 : Vec F S512x3200 .f32) (xs0 : Vec F S1x1 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread,
    View.ld_unit_zero (S := S512x3200) hz, View.ld_unit_zero (S := S1x1) hz, View.readCov_unit_zero (S := S1x1) _ hz]

/-- The first point sets the accumulator to zero and then updates it. -/
private theorem sA {F : FTy → Type} [FloatOps F] (c : Dev nD) (i : grid0.Coords) (a2 : Memref sig .tc .vmem S512x3200 .f32) (h2 : a2.IsWhole)
    (a3 : Memref sig .tc .vmem S512x3200 .f32) (h3 : a3.IsWhole) (a4 : Memref sig .tc .vmem S1x1 .f32) (h4 : a4.IsWhole)
    (a5 : Memref sig .tc .vmem S1x1 .f32) (h5 : a5.IsWhole) (hc0 : cond0_0 i) (hc1 : ¬cond0_1 i)
    (x0 x1 : Vec F S512x3200 .f32) :
    sout0_A_0 c i a2 h2 a3 h3 a4 h4 a5 h5 hc0 hc1 x0 x1 = k0_pay2 x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h2.read_unread, h3.read_unread,
    View.ld_unit_zero (S := S512x3200) hz]

/-- The dot product of the two blocks grid point `k` reads (zero past the grid). -/
private def term (c : Dev nD) (k : ℕ) : EReal :=
  if h : k < cfg0.N then blockDot (xblk m c ⟨k, h⟩) (wblk m c ⟨k, h⟩) else 0

private theorem term_of_lt (c : Dev nD) (k : ℕ) (h : k < cfg0.N) :
    term m c k = blockDot (xblk m c ⟨k, h⟩) (wblk m c ⟨k, h⟩) := dif_pos h

/-- After grid point `n` the accumulator's one entry is the sum of the dot products of the blocks of points 0 … n:
    by induction on the point, the first point starting from zero and every later one adding its own. -/
private theorem acc_eq (c : Dev nD) : ∀ (n : ℕ) (hn : n < cfg0.N),
    (outsAt0 m c n hn).2 = fun _ => ∑ k ∈ Finset.range (n + 1), term m c k
  | 0, hn => by
    have h0 : (⟨0, hn⟩ : Fin cfg0.N).val % 160 = 0 := rfl
    have h1 : ¬(⟨0, hn⟩ : Fin cfg0.N).val % 160 = 159 := fun h => absurd (show (0 : ℕ) % 160 = 159 from h) (by decide)
    rw [outsAt0_A m c ⟨0, hn⟩ h0 h1]
    dsimp only
    refine (sA (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr h0) (fun h => h1 ((hcond0_1 ⟨0, hn⟩).mp h)) (xblk m c ⟨0, hn⟩) (wblk m c ⟨0, hn⟩)).trans ?_
    funext j
    rw [pay2_apply, pay1_apply, zero_add, Finset.sum_range_one, term_of_lt m c 0 hn]
  | n + 1, hn => by
    have hN : n + 1 < 160 := lt_of_lt_of_eq hn N_0
    have h0 : ¬(⟨n + 1, hn⟩ : Fin cfg0.N).val % 160 = 0 := by dsimp only; omega
    have ih := acc_eq c n (Nat.lt_of_succ_lt hn)
    by_cases h1 : (⟨n + 1, hn⟩ : Fin cfg0.N).val % 160 = 159
    · rw [outsAt0_C m c ⟨n + 1, hn⟩ h0 h1]
      dsimp only
      refine (sC (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (xblk m c ⟨n + 1, hn⟩) (wblk m c ⟨n + 1, hn⟩) (outsAt0 m c n (Nat.lt_of_succ_lt hn)).2).trans ?_
      funext j
      rw [pay2_apply, ih, Finset.sum_range_succ _ (n + 1), term_of_lt m c (n + 1) hn]
    · rw [outsAt0_B m c ⟨n + 1, hn⟩ h0 h1]
      dsimp only
      refine (sB (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (xblk m c ⟨n + 1, hn⟩) (wblk m c ⟨n + 1, hn⟩) (outsAt0 m c n (Nat.lt_of_succ_lt hn)).2).trans ?_
      funext j
      rw [pay2_apply, ih, Finset.sum_range_succ _ (n + 1), term_of_lt m c (n + 1) hn]

/-- Summed over the whole grid these are the 160 blocks' dot products. -/
private theorem sum_term (c : Dev nD) :
    ∑ k ∈ Finset.range cfg0.N, term m c k = ∑ t : Fin cfg0.N, blockDot (xblk m c t) (wblk m c t) := by
  rw [← Fin.sum_univ_eq_sum_range]
  exact Finset.sum_congr rfl fun t _ => term_of_lt m c t.val t.isLt

/-- The last point copies the accumulator it has just updated into the result's block: the two hold the same. -/
private theorem out_eq_acc (c : Dev nD) (t : Fin cfg0.N) (h0 : ¬t.val % 160 = 0) (h1 : t.val % 160 = 159) :
    (outsAt0 m c t.val t.isLt).1 = (outsAt0 m c t.val t.isLt).2 := by
  rw [outsAt0_C m c t h0 h1]
  dsimp only
  exact (oC (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (wblk m c t) (outsAt0 m c (t.val - 1) (Nat.lt_of_le_of_lt (Nat.sub_le _ _) t.isLt)).2).trans
    (sC (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (wblk m c t) (outsAt0 m c (t.val - 1) (Nat.lt_of_le_of_lt (Nat.sub_le _ _) t.isLt)).2).symm

/-- The grid's last point. -/
private abbrev tLast : Fin cfg0.N := ⟨159, by decide⟩

/-- After the region the [1, 1] result array holds the sum of the 160 blocks' dot products. -/
theorem region_value (c : Dev nD) :
    (dats (F := Ideal) m 0 c).arrAt 2 cfg0.N = fun _ => (∑ t : Fin cfg0.N, blockDot (xblk m c t) (wblk m c t) : EReal) := by
  refine (dats (F := Ideal) m 0 c).arrAt_eq_of_cover 2 (fun _ => (∑ t : Fin cfg0.N, blockDot (xblk m c t) (wblk m c t) : EReal)) ?_ ?_
  · -- only the last point writes the block back, and there it holds the accumulator after all 160 points
    intro t hf
    have h159 : t.val % 160 = 159 := (flush0_2 t).mp hf
    have h0 : ¬t.val % 160 = 0 := by omega
    have hlt : t.val < 160 := lt_of_lt_of_eq t.isLt N_0
    have hlast : t.val + 1 = cfg0.N := (show t.val + 1 = 160 by omega).trans N_0.symm
    show (cfg0.win 2).cut (grid0.coords t) ((dats m 0 c).after 2 t) = _
    rw [after0_2, out_eq_acc m c t h0 h159, acc_eq m c t.val t.isLt, hlast, sum_term]
    rfl
  · -- the one block is the whole [1, 1] array
    intro i
    refine ⟨tLast, (flush0_2 tLast).mpr rfl, ?_⟩
    show i ∈ ((View.whole main_v77).slice (win0_2.rect tLast)).set
    rw [View.set_slice_whole, Rect.mem_set_unit]
    have hoff : ∀ a, win0_2.index tLast a * win0_2.size a = 0 := by decide +kernel
    have hsz : ∀ a, win0_2.xsize (grid0.coords tLast) a = 1 := by decide +kernel
    intro a
    have hi : (i a : ℕ) < 1 := by
      have := (i a).isLt
      match a with
      | ⟨0, _⟩ => exact this
      | ⟨1, _⟩ => exact this
    rw [hoff a, hsz a]
    omega

end Cert.KernelIdeal.WS

end
-- ==== Proof.Tiles.lean ====
/-
  The 160 blocks tile the [8192, 32000] arrays: point `t` reads rows `512·(t / 10) … + 511` and columns
  `3200·(t % 10) … + 3199`, so the sum over the points of the blocks' dot products is the dot product of the whole
  arrays — a re-indexing of one finite sum of extended reals.
-/
import proofs.«413760_j5755256177154_1_alg».proof.Proof.Region
import Mathlib.Algebra.BigOperators.Fin
import Mathlib.Logic.Equiv.Fin.Basic

noncomputable section

namespace Cert.KernelIdeal.WS

open Idealize.ShloMosaic Idealize.ShloMosaic.TcCoe Idealize.SL.Sem
open Cert.KernelIdeal Cert.KernelIdeal.Gen

/-! ## The re-indexing, over an arbitrary summand -/

/-- A sum over `k = m · n` numbers is the double sum over quotient `a` and remainder `b` of `b + n · a`. -/
private theorem sum_fin_split {M : Type*} [AddCommMonoid M] (m n k : ℕ) (hk : m * n = k) (h : Fin k → M) :
    ∑ x : Fin k, h x = ∑ a : Fin m, ∑ b : Fin n, h ⟨b.val + n * a.val, hk ▸ (finProdFinEquiv (a, b)).isLt⟩ := by
  subst hk
  rw [← Equiv.sum_comp finProdFinEquiv h, Fintype.sum_prod_type]
  rfl

/-- The tiling of [8192, 32000] by 16 × 10 blocks of [512, 3200]: with `t = 10·a + b`, the sum over `(t, r, l)` of the
    summand at row `512·(t / 10) + r`, column `3200·(t % 10) + l` is the sum over all rows and columns. Both sides
    split into sums over `(a, b, r, l)`; they differ by the order of `b` and `r`. -/
private theorem tile_reindex (f : Fin 8192 → Fin 32000 → EReal) :
    (∑ t : Fin 160, ∑ r : Fin 512, ∑ l : Fin 3200,
      f ⟨512 * (t.val / 10) + r.val, by have := t.isLt; have := r.isLt; omega⟩
        ⟨3200 * (t.val % 10) + l.val, by have := l.isLt; omega⟩)
    = ∑ a : Fin 8192, ∑ b : Fin 32000, f a b := by
  rw [sum_fin_split 16 10 160 rfl, sum_fin_split 16 512 8192 rfl]
  refine Finset.sum_congr rfl fun a _ => ?_
  rw [Finset.sum_comm]
  refine Finset.sum_congr rfl fun r _ => ?_
  rw [sum_fin_split 10 3200 32000 rfl]
  refine Finset.sum_congr rfl fun b _ => Finset.sum_congr rfl fun l _ => ?_
  have ha := a.isLt; have hr := r.isLt; have hb := b.isLt; have hl := l.isLt
  congr 1 <;> apply Fin.ext <;> dsimp only <;> omega

/-! ## What a block reads -/

/-- Point `t` of the 16 × 10 grid has block row `t / 10` and block column `t % 10`, in both read windows. -/
private theorem index0 : ∀ t : Fin grid0.N, win0_0.index t 0 = t.val / 10 ∧ win0_0.index t 1 = t.val % 10 := by
  decide +kernel
private theorem index1 : ∀ t : Fin grid0.N, win0_1.index t 0 = t.val / 10 ∧ win0_1.index t 1 = t.val % 10 := by
  decide +kernel

/-- The entry of [8192, 32000] that entry `(r, l)` of point `t`'s block is. -/
private def g (t : Fin cfg0.N) (r : Fin 512) (l : Fin 3200) : S8192x32000.Idx :=
  ValueIdx.ix2 (⟨512 * (t.val / 10) + r.val, by have := t.isLt; have h : cfg0.N = 160 := N_0; have := r.isLt; omega⟩ : Fin 8192)
    (⟨3200 * (t.val % 10) + l.val, by have := l.isLt; omega⟩ : Fin 32000)

variable (m : (ℓ : Loc nD τ sig) → Buf (Elt Ideal) ℓ)

/-- The two [8192, 32000] arrays the region reads, at their literal type. -/
abbrev lpArr (c : Dev nD) : Vec Ideal S8192x32000 .f32 := V m c main_v0
abbrev wArr (c : Dev nD) : Vec Ideal S8192x32000 .f32 := V m c main_v76

/-- A block's coordinate is the block's index times the block's size plus the coordinate inside the block. -/
private theorem xblk_read (c : Dev nD) (t : Fin cfg0.N) (r : Fin 512) (l : Fin 3200) :
    xblk m c t (rl r l) = lpArr m c (g t r l) := by
  have hi := index0 t
  show iblk m c 0 t (rl r l) = _
  unfold iblk
  rw [View.read_apply]
  show V m c main_v0 _ = _
  congr 1
  funext a
  apply Fin.ext
  match a with
  | ⟨0, _⟩ => show win0_0.index t 0 * 512 + 1 * r.val = 512 * (t.val / 10) + r.val; rw [hi.1]; omega
  | ⟨1, _⟩ => show win0_0.index t 1 * 3200 + 1 * l.val = 3200 * (t.val % 10) + l.val; rw [hi.2]; omega

private theorem wblk_read (c : Dev nD) (t : Fin cfg0.N) (r : Fin 512) (l : Fin 3200) :
    wblk m c t (rl r l) = wArr m c (g t r l) := by
  have hi := index1 t
  show iblk m c 1 t (rl r l) = _
  unfold iblk
  rw [View.read_apply]
  show V m c main_v76 _ = _
  congr 1
  funext a
  apply Fin.ext
  match a with
  | ⟨0, _⟩ => show win0_1.index t 0 * 512 + 1 * r.val = 512 * (t.val / 10) + r.val; rw [hi.1]; omega
  | ⟨1, _⟩ => show win0_1.index t 1 * 3200 + 1 * l.val = 3200 * (t.val % 10) + l.val; rw [hi.2]; omega

/-- The sum over the grid of the blocks' dot products is the dot product of the two arrays the region reads. -/
theorem tiles_sum (c : Dev nD) :
    (∑ t : Fin cfg0.N, blockDot (xblk m c t) (wblk m c t))
      = ∑ i : S8192x32000.Idx, (lpArr m c i : EReal) * (wArr m c i : EReal) := by
  -- each block's dot product, read off the whole arrays
  have hL : ∀ t : Fin cfg0.N, blockDot (xblk m c t) (wblk m c t)
      = ∑ r : Fin 512, ∑ l : Fin 3200, (lpArr m c (g t r l) : EReal) * (wArr m c (g t r l) : EReal) := by
    intro t
    unfold blockDot
    refine Finset.sum_congr rfl fun r _ => Finset.sum_congr rfl fun l _ => ?_
    rw [xblk_read, wblk_read]
  rw [Finset.sum_congr rfl fun t _ => hL t, ValueIdx.sum_idx2,
    ← tile_reindex fun a b => (lpArr m c (ValueIdx.ix2 a b) : EReal) * (wArr m c (ValueIdx.ix2 a b) : EReal)]
  -- the grid's points are the numbers below 160
  exact (Equiv.sum_comp (finCongr N_0) fun t : Fin 160 => ∑ r : Fin 512, ∑ l : Fin 3200,
    (lpArr m c (ValueIdx.ix2 ⟨512 * (t.val / 10) + r.val, by have := t.isLt; have := r.isLt; omega⟩
      ⟨3200 * (t.val % 10) + l.val, by have := l.isLt; omega⟩) : EReal)
    * (wArr m c (ValueIdx.ix2 ⟨512 * (t.val / 10) + r.val, by have := t.isLt; have := r.isLt; omega⟩
      ⟨3200 * (t.val % 10) + l.val, by have := l.isLt; omega⟩) : EReal))

end Cert.KernelIdeal.WS

end
-- ==== Proof.Spec.lean ====
/-
  The word-smoothing loss, as one family of pure functions of the six argument arrays.

  Rows are the 8192 = 4·2048 positions; each has a target word `t n` in a vocabulary of 32000, and the target's
  row of the sparse similarity table gives 801 neighbour columns `c n j` with weights
  `sim n j = e n j / ∑ j, e n j`, `e = exp (exp ((s − 1 − τ·d) / τ) / τ)`.

  One program first spreads the weights over the vocabulary,
      W n v = (0 + ∑ over (n', j) with n' = n and c n' j = v of α · sim n' j) + ∑ over n' = n with t n' = v of β · m n',
  and returns  −(∑ n v, lp n v · W n v) / ∑ m.
  The other reads `lp` at the neighbour columns and at the target and returns
      α · (−(∑ n j, lp n (c n j) · sim n j) / ∑ m) + β · (−(∑ n, lp n (t n) · m n) / ∑ m).
  Where every entry is a real number, every index is in range and `∑ m ≠ 0`, the two agree: a sum over the
  vocabulary of `lp n v` times the weights landing on `v` is the sum over the weights of `lp` at where each lands.
-/
import Idealize.ShloMosaic.PureOps
import Idealize.ShloMosaic.PureOps.Ideal
import Idealize.ShloMosaic.Lib.StableHlo

noncomputable section

namespace Cert.WSmooth

open Idealize.ShloMosaic

/-! ## Shapes -/

abbrev SLp3 : Shape := ⟨3, ![4, 2048, 32000]⟩
abbrev SMk : Shape := ⟨2, ![4, 2048]⟩
abbrev STab : Shape := ⟨2, ![32000, 801]⟩
abbrev SNV : Shape := ⟨2, ![8192, 32000]⟩
abbrev SN : Shape := ⟨1, ![8192]⟩
abbrev S0 : Shape := ⟨0, ![]⟩
abbrev SN1 : Shape := ⟨2, ![8192, 1]⟩
abbrev SNJ : Shape := ⟨2, ![8192, 801]⟩
abbrev SNJ1 : Shape := ⟨3, ![8192, 801, 1]⟩
abbrev SNJ2 : Shape := ⟨3, ![8192, 801, 2]⟩
abbrev SN2 : Shape := ⟨2, ![8192, 2]⟩
abbrev S11 : Shape := ⟨2, ![1, 1]⟩
abbrev S1v : Shape := ⟨1, ![1]⟩
abbrev S111 : Shape := ⟨3, ![1, 1, 1]⟩
abbrev SN11 : Shape := ⟨3, ![8192, 1, 1]⟩

theorem hc_lp : SLp3.ShapeCasts SNV := by decide
theorem hc_mk : SMk.ShapeCasts SN := by decide
theorem hb_0_N : S0.BroadcastsInDim SN (![] : Fin 0 → Fin SN.rank) := by decide
theorem hb_N_N1 : SN.BroadcastsInDim SN1 (![0] : Fin 1 → Fin SN1.rank) := by decide
theorem hb_0_NJ : S0.BroadcastsInDim SNJ (![] : Fin 0 → Fin SNJ.rank) := by decide
theorem hr_NJ_N : SNJ.ReducesTo [1] SN := by decide
theorem h0 : 0 < S0.numel := by decide
theorem hb_N1_NJ : SN1.BroadcastsInDim SNJ (![0, 1] : Fin 2 → Fin SNJ.rank) := by decide
theorem hr_N_0 : SN.ReducesTo [0] S0 := by decide
theorem hb_0_NV : S0.BroadcastsInDim SNV (![] : Fin 0 → Fin SNV.rank) := by decide
theorem hb_NJ_NJ1 : SNJ.BroadcastsInDim SNJ1 (![0, 1] : Fin 2 → Fin SNJ1.rank) := by decide
theorem hcat_NJ2 : Shape.Concatenates [SNJ1, SNJ1] SNJ2 2 := by decide
theorem hcat_N2 : Shape.Concatenates [SN1, SN1] SN2 1 := by decide
theorem hc_11_0 : S11.ShapeCasts S0 := by decide
theorem hc_NJ_NJ1 : SNJ.ShapeCasts SNJ1 := by decide
theorem hb_0_NJ1 : S0.BroadcastsInDim SNJ1 (![] : Fin 0 → Fin SNJ1.rank) := by decide
theorem hb_1_111 : S1v.BroadcastsInDim S111 (![2] : Fin 1 → Fin S111.rank) := by decide
theorem hb_111_NJ1 : S111.BroadcastsInDim SNJ1 (![0, 1, 2] : Fin 3 → Fin SNJ1.rank) := by decide
theorem hr_NJ1_NJ : SNJ1.ReducesTo [2] SNJ := by decide
theorem hr_NJ_0 : SNJ.ReducesTo [0, 1] S0 := by decide
theorem hb_0_N1 : S0.BroadcastsInDim SN1 (![] : Fin 0 → Fin SN1.rank) := by decide
theorem hc_N1_N11 : SN1.ShapeCasts SN11 := by decide
theorem hb_0_N11 : S0.BroadcastsInDim SN11 (![] : Fin 0 → Fin SN11.rank) := by decide
theorem hb_111_N11 : S111.BroadcastsInDim SN11 (![0, 1, 2] : Fin 3 → Fin SN11.rank) := by decide
theorem hr_N11_N1 : SN11.ReducesTo [2] SN1 := by decide
theorem hc_N1_N : SN1.ShapeCasts SN := by decide

/-- A row of a [32000, 801] table per position: the take `table[rows]`. -/
def gdRow : GatherDims STab SN1 SNJ where
  offsetDims := [1]
  collapsedSliceDims := [0]
  operandBatchingDims := []
  startIndicesBatchingDims := []
  startIndexMap := [0]
  indexVectorDim := 1
  sliceSizes := ![1, 801]

/-- One column per (position, neighbour) out of that position's row of [8192, 32000]: `take_along_axis`. -/
def gdTake : GatherDims SNV SNJ1 SNJ where
  offsetDims := []
  collapsedSliceDims := [1]
  operandBatchingDims := [0]
  startIndicesBatchingDims := [0]
  startIndexMap := [1]
  indexVectorDim := 2
  sliceSizes := ![1, 1]

/-- One column per position out of that position's row. -/
def gdTake1 : GatherDims SNV SN11 SN1 where
  offsetDims := []
  collapsedSliceDims := [1]
  operandBatchingDims := [0]
  startIndicesBatchingDims := [0]
  startIndexMap := [1]
  indexVectorDim := 2
  sliceSizes := ![1, 1]

/-- Point updates `(row, column)` per (position, neighbour) into [8192, 32000]. -/
def sdCols : ScatterDims SNV SNJ2 SNJ where
  updateWindowDims := []
  insertedWindowDims := [0, 1]
  scatterDimsToOperandDims := [0, 1]
  indexVectorDim := 2

/-- Point updates `(row, column)` per position into [8192, 32000]. -/
def sdRows : ScatterDims SNV SN2 SN where
  updateWindowDims := []
  insertedWindowDims := [0, 1]
  scatterDimsToOperandDims := [0, 1]
  indexVectorDim := 1

variable {F : FTy → Type} [FloatOps F]

/-! ## What both programs compute first -/

/-- `lp` with the two leading axes merged: [8192, 32000]. -/
def lpOf (lp3 : FVec F SLp3 .f32) : FVec F SNV .f32 := shapeCast SNV lp3 hc_lp
/-- The mask, flat. -/
def mOf (mk : FVec F SMk .f32) : FVec F SN .f32 := shapeCast SN mk hc_mk
/-- The targets, flat. -/
def tflat (tg : IVec SMk 32) : IVec SN 32 := shapeCast SN tg hc_mk
/-- The targets with a negative one counted from the end. -/
def rowsOf (tg : IVec SMk 32) : IVec SN 32 :=
  select (cmpi .slt (tflat tg) (broadcastInDim SN ![] hb_0_N (constantI S0 32 0#32)))
    (addi (tflat tg) (broadcastInDim SN ![] hb_0_N (constantI S0 32 32000#32))) (tflat tg)
/-- The target's row of a table, per position. -/
def gRow {α : Type} (x : STab.Idx → α) (rows : IVec SN 32) : SNJ.Idx → α :=
  Host.gather gdRow x (broadcastInDim SN1 ![0] hb_N_N1 rows)
/-- `exp (exp ((s − 1 − τ·d) / τ) / τ)`. -/
def valsOf (sv iv : FVec F STab .f32) (tg : IVec SMk 32) : FVec F SNJ .f32 :=
  Host.exp (Host.divf (Host.exp (Host.divf
    (subf (subf (gRow sv (rowsOf tg)) (broadcastInDim SNJ ![] hb_0_NJ (constant S0 .f32 0x3F800000#32)))
      (mulf (broadcastInDim SNJ ![] hb_0_NJ (constant S0 .f32 0x3F4CCCCD#32)) (gRow iv (rowsOf tg))))
    (broadcastInDim SNJ ![] hb_0_NJ (constant S0 .f32 0x3F4CCCCD#32))))
    (broadcastInDim SNJ ![] hb_0_NJ (constant S0 .f32 0x3F4CCCCD#32)))
/-- The weights, normalised along each row. -/
def simOf (sv iv : FVec F STab .f32) (tg : IVec SMk 32) : FVec F SNJ .f32 :=
  Host.divf (valsOf sv iv tg) (broadcastInDim SNJ ![0, 1] hb_N1_NJ (broadcastInDim SN1 ![0] hb_N_N1
    (Host.reduceAdd (valsOf sv iv tg) (constant S0 .f32 0x00000000#32) hr_NJ_N h0)))
/-- The neighbour columns as stored, per position. -/
def colsRaw (sc : IVec STab 32) (tg : IVec SMk 32) : IVec SNJ 32 := gRow sc (rowsOf tg)
/-- The neighbour columns with a negative one counted from the end. -/
def colsOf (sc : IVec STab 32) (tg : IVec SMk 32) : IVec SNJ 32 :=
  select (cmpi .slt (colsRaw sc tg) (broadcastInDim SNJ ![] hb_0_NJ (constantI S0 32 0#32)))
    (addi (colsRaw sc tg) (broadcastInDim SNJ ![] hb_0_NJ (constantI S0 32 32000#32))) (colsRaw sc tg)
/-- `∑ m`. -/
def denomOf (mk : FVec F SMk .f32) : FVec F S0 .f32 :=
  Host.reduceAdd (mOf mk) (constant S0 .f32 0x00000000#32) hr_N_0 h0

/-! ## The program that spreads the weights first -/

/-- The position numbers 0 … 8192, a negative one counted from the end (none is). -/
def posOf : IVec SN 32 :=
  select (cmpi .slt (iotaInDim SN 32 0) (broadcastInDim SN ![] hb_0_N (constantI S0 32 0#32)))
    (addi (iotaInDim SN 32 0) (broadcastInDim SN ![] hb_0_N (constantI S0 32 8192#32))) (iotaInDim SN 32 0)
/-- The same per (position, neighbour). -/
def posJ : IVec SNJ 32 :=
  select (cmpi .slt (broadcastInDim SNJ ![0, 1] hb_N1_NJ (broadcastInDim SN1 ![0] hb_N_N1 (iotaInDim SN 32 0)))
      (broadcastInDim SNJ ![] hb_0_NJ (constantI S0 32 0#32)))
    (addi (broadcastInDim SNJ ![0, 1] hb_N1_NJ (broadcastInDim SN1 ![0] hb_N_N1 (iotaInDim SN 32 0)))
      (broadcastInDim SNJ ![] hb_0_NJ (constantI S0 32 8192#32)))
    (broadcastInDim SNJ ![0, 1] hb_N1_NJ (broadcastInDim SN1 ![0] hb_N_N1 (iotaInDim SN 32 0)))
/-- Where each neighbour weight goes: (position, column). -/
def idxCols (sc : IVec STab 32) (tg : IVec SMk 32) : IVec SNJ2 32 :=
  concatenate SNJ2 2 [⟨SNJ1, broadcastInDim SNJ1 ![0, 1] hb_NJ_NJ1 posJ⟩,
    ⟨SNJ1, broadcastInDim SNJ1 ![0, 1] hb_NJ_NJ1 (colsOf sc tg)⟩] hcat_NJ2
/-- Where each position's own weight goes: (position, target). -/
def idxRows (tg : IVec SMk 32) : IVec SN2 32 :=
  concatenate SN2 1 [⟨SN1, broadcastInDim SN1 ![0] hb_N_N1 posOf⟩,
    ⟨SN1, broadcastInDim SN1 ![0] hb_N_N1 (rowsOf tg)⟩] hcat_N2
/-- The weights spread over the vocabulary. -/
def wtotOf (sv iv : FVec F STab .f32) (mk : FVec F SMk .f32) (tg : IVec SMk 32) (sc : IVec STab 32) : FVec F SNV .f32 :=
  Host.scatterAdd sdRows
    (Host.scatterAdd sdCols (broadcastInDim SNV ![] hb_0_NV (constant S0 .f32 0x00000000#32)) (idxCols sc tg)
      (mulf (broadcastInDim SNJ ![] hb_0_NJ (constant S0 .f32 0x3F333333#32)) (simOf sv iv tg)))
    (idxRows tg)
    (mulf (broadcastInDim SN ![] hb_0_N (constant S0 .f32 0x3E99999A#32)) (mOf mk))
/-- Its result, from the accumulated dot product. -/
def kerRes (acc : FVec F S11 .f32) (mk : FVec F SMk .f32) : FVec F S0 .f32 :=
  Host.divf (Host.negf (shapeCast S0 acc hc_11_0)) (denomOf mk)

/-! ## The program that reads `lp` where the weights point -/

/-- `lp` at the neighbour columns (a fill value where a column is out of range). -/
def takeCols (lp : FVec F SNV .f32) (cw : IVec SNJ 32) : FVec F SNJ .f32 :=
  select
    (Host.reduce IntOp.andi
      (andi (cmpi .sge (shapeCast SNJ1 cw hc_NJ_NJ1) (broadcastInDim SNJ1 ![] hb_0_NJ1 (constantI S0 32 0#32)))
        (cmpi .sle (shapeCast SNJ1 cw hc_NJ_NJ1)
          (broadcastInDim SNJ1 ![0, 1, 2] hb_111_NJ1 (broadcastInDim S111 ![2] hb_1_111 (constantI S1v 32 31999#32)))))
      (constantI S0 1 1#1) hr_NJ1_NJ h0)
    (Host.gather gdTake lp (shapeCast SNJ1 cw hc_NJ_NJ1))
    (broadcastInDim SNJ ![] hb_0_NJ (constant S0 .f32 0x7FC00000#32))
/-- The targets as a column, a negative one counted from the end. -/
def rows1 (tg : IVec SMk 32) : IVec SN1 32 :=
  select (cmpi .slt (broadcastInDim SN1 ![0] hb_N_N1 (tflat tg)) (broadcastInDim SN1 ![] hb_0_N1 (constantI S0 32 0#32)))
    (addi (broadcastInDim SN1 ![0] hb_N_N1 (tflat tg)) (broadcastInDim SN1 ![] hb_0_N1 (constantI S0 32 32000#32)))
    (broadcastInDim SN1 ![0] hb_N_N1 (tflat tg))
/-- `lp` at the target (a fill value where it is out of range). -/
def takeRows (lp : FVec F SNV .f32) (tg : IVec SMk 32) : FVec F SN1 .f32 :=
  select
    (Host.reduce IntOp.andi
      (andi (cmpi .sge (shapeCast SN11 (rows1 tg) hc_N1_N11) (broadcastInDim SN11 ![] hb_0_N11 (constantI S0 32 0#32)))
        (cmpi .sle (shapeCast SN11 (rows1 tg) hc_N1_N11)
          (broadcastInDim SN11 ![0, 1, 2] hb_111_N11 (broadcastInDim S111 ![2] hb_1_111 (constantI S1v 32 31999#32)))))
      (constantI S0 1 1#1) hr_N11_N1 h0)
    (Host.gather gdTake1 lp (shapeCast SN11 (rows1 tg) hc_N1_N11))
    (broadcastInDim SN1 ![] hb_0_N1 (constant S0 .f32 0x7FC00000#32))
/-- Its result. -/
def refRes (lp3 : FVec F SLp3 .f32) (mk : FVec F SMk .f32) (sv iv : FVec F STab .f32) (tg : IVec SMk 32) (sc : IVec STab 32) :
    FVec F S0 .f32 :=
  addf
    (mulf (constant S0 .f32 0x3F333333#32) (Host.divf (Host.negf (Host.reduceAdd
      (mulf (takeCols (lpOf lp3) (colsOf sc tg)) (simOf sv iv tg)) (constant S0 .f32 0x00000000#32) hr_NJ_0 h0)) (denomOf mk)))
    (mulf (constant S0 .f32 0x3E99999A#32) (Host.divf (Host.negf (Host.reduceAdd
      (mulf (shapeCast SN (takeRows (lpOf lp3) tg) hc_N1_N) (mOf mk)) (constant S0 .f32 0x00000000#32) hr_N_0 h0)) (denomOf mk)))

/-! ## Indices, and the domain on which the two agree -/

/-- Entry (n, v) of [8192, 32000]. -/
def nv (n : Fin 8192) (v : Fin 32000) : SNV.Idx := fun a => match a with
  | ⟨0, _⟩ => n
  | ⟨1, _⟩ => v
/-- Where the weight of (position, neighbour) `p` lands: that position's row, at its stored column. -/
def landCols (sc : IVec STab 32) (tg : IVec SMk 32) (p : SNJ.Idx) : SNV.Idx :=
  nv (p 0) ⟨(colsRaw sc tg p).toNat % 32000, Nat.mod_lt _ (by decide)⟩
/-- Where position `q`'s own weight lands: its row, at its target. -/
def landRows (tg : IVec SMk 32) (q : SN.Idx) : SNV.Idx :=
  nv (q 0) ⟨(tflat tg q).toNat % 32000, Nat.mod_lt _ (by decide)⟩

/-- Every float entry a real number, every index in range, the mask's sum not zero. -/
structure Good (lp3 : FVec Ideal SLp3 .f32) (mk : FVec Ideal SMk .f32) (sv iv : FVec Ideal STab .f32)
    (tg : IVec SMk 32) (sc : IVec STab 32) : Prop where
  lpR : ∀ i, ∃ r : ℝ, (lp3 i : EReal) = (r : EReal)
  mkR : ∀ i, ∃ r : ℝ, (mk i : EReal) = (r : EReal)
  svR : ∀ i, ∃ r : ℝ, (sv i : EReal) = (r : EReal)
  ivR : ∀ i, ∃ r : ℝ, (iv i : EReal) = (r : EReal)
  tgB : ∀ i, 0 ≤ (tg i).toInt ∧ (tg i).toInt < 32000
  scB : ∀ i, 0 ≤ (sc i).toInt ∧ (sc i).toInt < 32000
  den : ∀ i, (denomOf (F := Ideal) mk i : EReal) ≠ 0

/-- 0.7 and 0.3 as the floats the programs carry. -/
abbrev cA : EReal := Ideal.ofBits .f32 0x3F333333#32
abbrev cB : EReal := Ideal.ofBits .f32 0x3E99999A#32

end Cert.WSmooth

end
-- ==== Proof.HostK.lean ====
/-
  The host lines around the region. Before it they merge `lp`'s leading axes and build the spread weights and the
  mask's sum; after it they read the [1, 1] result as a scalar, negate it and divide by the mask's sum.
-/
import proofs.«413760_j5755256177154_1_alg».proof.Proof.Gen.KernelIdeal.Frame
import proofs.«413760_j5755256177154_1_alg».proof.Proof.Spec
import Idealize.ShloMosaic.Lib.Pipeline.Value
import Idealize.ShloMosaic.Lib.StableHlo.Run

noncomputable section

namespace Cert.KernelIdeal.WS

open Idealize.ShloMosaic Idealize.ShloMosaic.TcCoe Idealize.SL.Sem
open Idealize.ShloMosaic.Pipeline (Dat)
open Cert.KernelIdeal Cert.KernelIdeal.Gen Cert.WSmooth

variable {F : FTy → Type} [FloatOps F]
variable (m : (ℓ : Loc nD τ sig) → Buf (Elt F) ℓ)

/-- The first array the region reads is `lp` with its leading axes merged. -/
theorem V_lp (c : Dev nD) :
    (V m c main_v0 : S8192x32000.Idx → F .f32) = lpOf (m ((c.tc : Thread nD τ).loc main_arg0)) := by
  -- Of the lines before the region only the first writes this array: it reads `lp`, of shape [4, 2048, 32000], as
  -- [8192, 32000]. Every later line writes another array and leaves this one as it is.
  show StableHlo.after hostOps0 (fun b => m (c, b)) (Proc.devRef .tc main_v0) = _
  after_results
  rfl

set_option maxHeartbeats 4000000 in
/-- The second is the spread weights. -/
theorem V_w (c : Dev nD) :
    (V m c main_v76 : S8192x32000.Idx → F .f32)
      = wtotOf (m ((c.tc : Thread nD τ).loc main_arg2)) (m ((c.tc : Thread nD τ).loc main_arg3))
          (m ((c.tc : Thread nD τ).loc main_arg1)) (m ((c.tc : Thread nD τ).loc main_arg4)) (m ((c.tc : Thread nD τ).loc main_arg5)) := by
  -- The last line before the region writes this array: the second scatter-add. Reading each line's result at its
  -- operands, back to the five arguments it depends on, gives one composed term: onto the zero array the neighbour
  -- weights 0.7 · sim are added at (position, column), then the mask weights 0.3 · m at (position, target).
  show StableHlo.after hostOps0 (fun b => m (c, b)) (Proc.devRef .tc main_v76) = _
  after_results_simp
  -- That term is `wtotOf` written out, line for line. The two sides differ only in the names given to the shapes
  -- and to the gather and scatter dimension records (whose fields agree) and in which proof of a shape fact is cited.
  unfold wtotOf idxCols idxRows posJ posOf colsOf colsRaw simOf valsOf gRow rowsOf tflat mOf
  chain_rfl

/-- The mask's sum, as the lines before the region leave it: the flat mask summed over its one axis from zero. -/
private theorem V_den (c : Dev nD) :
    (V0 m c (Proc.devRef .tc main_v39) : S_.Idx → F .f32) = denomOf (m ((c.tc : Thread nD τ).loc main_arg1)) := by
  show StableHlo.after hostOps0 (fun b => m (c, b)) (Proc.devRef .tc main_v39) = _
  after_results
  rfl

/-- The program's result after the lines that follow the region: the accumulated [1, 1] array as a scalar, negated,
    over the mask's sum. -/
theorem tail_value (dats : (p : Fin 1) → (c : Dev nD) → Dat τ (Elt F) Unit ℕ (UR sig nD τ) ℕ (cfgs p) c)
    (hA : ∀ c w, (dats 0 c).A w = V m c (Pipeline.arrRef spec0 w)) (c : Dev nD) :
    (Pipeline.afterTail₀ cfgs dats 0 (V0 m) [hostOps1] c main_v80 : S_.Idx → F .f32)
      = kerRes ((dats 0 c).arrAt 2 cfg0.N) (m ((c.tc : Thread nD τ).loc main_arg1)) := by
  -- The three lines after the region read the third window's array as a scalar, negate it, and divide by the array
  -- holding the mask's sum.
  unfold Pipeline.afterTail₀
  show StableHlo.after hostOps1 _ (Proc.devRef .tc main_v80) = _
  after_results
  -- The third window's array holds what the region left in it.
  have e2 : Pipeline.withArrays (cfgs 0).spec c (V0 m c) (fun w => (dats 0 c).arrAt w (cfgs 0).N) (Proc.devRef .tc main_v77)
      = (dats 0 c).arrAt 2 cfg0.N := Pipeline.withArrays_arr spec0 launch0.win.arr_inj c _ _ 2
  -- The divisor is no window's array, so the region left it as the lines before the region wrote it: the mask's sum.
  rw [e2, Pipeline.withArrays_of_ne _ c (V0 m c) _ main_v39 (by decide : ∀ w, Pipeline.arrRef spec0 w ≠ main_v39), V_den]
  rfl

end Cert.KernelIdeal.WS

end
-- ==== Proof.KernelRun.lean ====
/-
  The run of the program that spreads the weights first, read at the ideal instance: it ends with its result at
  `−(∑ n v, lp n v · W n v) / ∑ m` and its arguments unchanged.
-/
import proofs.«413760_j5755256177154_1_alg».proof.Proof.Tiles
import proofs.«413760_j5755256177154_1_alg».proof.Proof.HostK

noncomputable section

namespace Cert.KernelIdeal.WS

open Idealize.ShloMosaic Idealize.ShloMosaic.TcCoe Idealize.SL.Sem
open Cert.KernelIdeal Cert.KernelIdeal.Gen Cert.WSmooth

variable (m : (ℓ : Loc nD τ sig) → Buf (Elt Ideal) ℓ) (ρ : Dev nD → PrngReg)

/-- The dot product of `lp` with the spread weights, as the [1, 1] array the region leaves. -/
def accOf (c : Dev nD) : FVec Ideal S11 .f32 := fun _ =>
  (∑ i : SNV.Idx, (lpOf (F := Ideal) (m ((c.tc : Thread nD τ).loc main_arg0)) i : EReal)
    * (wtotOf (F := Ideal) (m ((c.tc : Thread nD τ).loc main_arg2)) (m ((c.tc : Thread nD τ).loc main_arg3))
        (m ((c.tc : Thread nD τ).loc main_arg1)) (m ((c.tc : Thread nD τ).loc main_arg4)) (m ((c.tc : Thread nD τ).loc main_arg5)) i : EReal) : EReal)

theorem kernel_run : θ_run defs (onTc (τ := τ) (main (F := Ideal))) ⟨m, fun _ => 0, ρ⟩ (fun r => ∀ c : Dev nD,
      r.2.mem ((c.tc : Thread nD τ).loc main_v80) = kerRes (accOf m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_main (F := Ideal) m ρ)
  refine ⟨?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩
  refine ((h c).2 main_v80 (Pipeline.mem_restRefs_of main_v80 (by decide) (by decide))).trans ?_
  refine (tail_value m (dats m) (A_eq m) c).trans ?_
  refine congrArg (fun a : FVec Ideal S11 .f32 => kerRes a (m ((c.tc : Thread nD τ).loc main_arg1))) ?_
  refine (region_value m c).trans ?_
  funext _
  refine (tiles_sum m c).trans ?_
  unfold accOf
  refine Finset.sum_congr rfl fun i _ => ?_
  have e0 : (lpArr m c i : EReal) = (lpOf (F := Ideal) (m ((c.tc : Thread nD τ).loc main_arg0)) i : EReal) :=
    congrFun (V_lp m c) i
  have e1 : (wArr m c i : EReal) = (wtotOf (F := Ideal) (m ((c.tc : Thread nD τ).loc main_arg2)) (m ((c.tc : Thread nD τ).loc main_arg3))
      (m ((c.tc : Thread nD τ).loc main_arg1)) (m ((c.tc : Thread nD τ).loc main_arg4)) (m ((c.tc : Thread nD τ).loc main_arg5)) i : EReal) :=
    congrFun (V_w m c) i
  rw [e0, e1]

end Cert.KernelIdeal.WS

end
-- ==== Proof.RefStages.lean ====
/-
  The reference program's run, read in five stages. Its 113 host operations are one straight line; cut after the
  shared prefix (the merged `lp`, the flat targets and mask, the weights, the stored columns), after the read of
  `lp` at the columns, after the first quotient, after the read of `lp` at the targets, the buffers a later stage
  still reads are few, and each stage's result is one function of what the stage before left. Composed, the result
  is `refRes` of the six argument arrays.
-/
import proofs.«413760_j5755256177154_1_alg».proof.Proof.RefRun
import proofs.«413760_j5755256177154_1_alg».proof.Proof.Spec

noncomputable section

namespace Cert.ReferenceIdeal.WS

open Idealize.ShloMosaic Idealize.ShloMosaic.TcCoe Idealize.SL.Sem Idealize.ShloMosaic.StableHlo
open Cert.ReferenceIdeal Cert.ReferenceIdeal.Gen Cert.ReferenceIdeal.Value Cert.WSmooth

variable {F : FTy → Type} [FloatOps F]

/-! ## The fold over a concatenation, and the five stages' operations -/

/-- The fold over a concatenation is the fold over the second list, started from the fold over the first. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Operations 1 to 50: the merged `lp`, the flat targets and mask, the weights, the stored columns. -/
private abbrev opsA : List (HloOp τ sig (Elt F)) :=
  [ reshape main_arg0 main_v0 rfl shapeCasts_S4x2048x32000_S8192x32000,
    reshape main_arg4 main_v1 rfl shapeCasts_S4x2048_S8192,
    reshape main_arg1 main_v2 rfl shapeCasts_S4x2048_S8192,
    nullary main_c (constantI S_ 32 0#32),
    unary main_c main_v3 (broadcastInDim S8192 ![] bcast_S_S8192 : (⟨S_, .i32⟩ : BufTy).Contents (Elt F) → (⟨S8192, .i32⟩ : BufTy).Contents (Elt F)),
    binary main_v1 main_v3 main_v4 (cmpi .slt : (⟨S8192, .i32⟩ : BufTy).Contents (Elt F) → (⟨S8192, .i32⟩ : BufTy).Contents (Elt F) → (⟨S8192, .i1⟩ : BufTy).Contents (Elt F)),
    nullary main_c_0 (constantI S_ 32 32000#32),
    unary main_c_0 main_v5 (broadcastInDim S8192 ![] bcast_S_S8192 : (⟨S_, .i32⟩ : BufTy).Contents (Elt F) → (⟨S8192, .i32⟩ : BufTy).Contents (Elt F)),
    binary main_v1 main_v5 main_v6 (addi : (⟨S8192, .i32⟩ : BufTy).Contents (Elt F) → (⟨S8192, .i32⟩ : BufTy).Contents (Elt F) → (⟨S8192, .i32⟩ : BufTy).Contents (Elt F)),
    ternary main_v4 main_v6 main_v1 main_v7 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v7 main_v8 (broadcastInDim S8192x1 ![0] bcast_S8192_S8192x1_0 : (⟨S8192, .i32⟩ : BufTy).Contents (Elt F) → (⟨S8192x1, .i32⟩ : BufTy).Contents (Elt F)),
    binary main_arg2 main_v8 main_v9 ((fun x i => Host.gather gather_S32000x801_S8192x1_S8192x801_1_0_n_n_0_1_1801 x i) : (⟨S32000x801, .f32⟩ : BufTy).Contents (Elt F) → (⟨S8192x1, .i32⟩ : BufTy).Contents (Elt F) → (⟨S8192x801, .f32⟩ : BufTy).Contents (Elt F)),
    nullary main_cst (constant S_ .f32 0x3F800000#32),
    unary main_cst main_v10 (broadcastInDim S8192x801 ![] bcast_S_S8192x801 : (⟨S_, .f32⟩ : BufTy).Contents (Elt F) → (⟨S8192x801, .f32⟩ : BufTy).Contents (Elt F)),
    binary main_v9 main_v10 main_v11 (subf : (⟨S8192x801, .f32⟩ : BufTy).Contents (Elt F) → (⟨S8192x801, .f32⟩ : BufTy).Contents (Elt F) → (⟨S8192x801, .f32⟩ : BufTy).Contents (Elt F)),
    nullary main_c_1 (constantI S_ 32 0#32),
    unary main_c_1 main_v12 (broadcastInDim S8192 ![] bcast_S_S8192 : (⟨S_, .i32⟩ : BufTy).Contents (Elt F) → (⟨S8192, .i32⟩ : BufTy).Contents (Elt F)),
    binary main_v1 main_v12 main_v13 (cmpi .slt : (⟨S8192, .i32⟩ : BufTy).Contents (Elt F) → (⟨S8192, .i32⟩ : BufTy).Contents (Elt F) → (⟨S8192, .i1⟩ : BufTy).Contents (Elt F)),
    nullary main_c_2 (constantI S_ 32 32000#32),
    unary main_c_2 main_v14 (broadcastInDim S8192 ![] bcast_S_S8192 : (⟨S_, .i32⟩ : BufTy).Contents (Elt F) → (⟨S8192, .i32⟩ : BufTy).Contents (Elt F)),
    binary main_v1 main_v14 main_v15 (addi : (⟨S8192, .i32⟩ : BufTy).Contents (Elt F) → (⟨S8192, .i32⟩ : BufTy).Contents (Elt F) → (⟨S8192, .i32⟩ : BufTy).Contents (Elt F)),
    ternary main_v13 main_v15 main_v1 main_v16 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v16 main_v17 (broadcastInDim S8192x1 ![0] bcast_S8192_S8192x1_0 : (⟨S8192, .i32⟩ : BufTy).Contents (Elt F) → (⟨S8192x1, .i32⟩ : BufTy).Contents (Elt F)),
    binary main_arg3 main_v17 main_v18 ((fun x i => Host.gather gather_S32000x801_S8192x1_S8192x801_1_0_n_n_0_1_1801 x i) : (⟨S32000x801, .f32⟩ : BufTy).Contents (Elt F) → (⟨S8192x1, .i32⟩ : BufTy).Contents (Elt F) → (⟨S8192x801, .f32⟩ : BufTy).Contents (Elt F)),
    nullary main_cst_3 (constant S_ .f32 0x3F4CCCCD#32),
    unary main_cst_3 main_v19 (broadcastInDim S8192x801 ![] bcast_S_S8192x801 : (⟨S_, .f32⟩ : BufTy).Contents (Elt F) → (⟨S8192x801, .f32⟩ : BufTy).Contents (Elt F)),
    binary main_v19 main_v18 main_v20 (mulf : (⟨S8192x801, .f32⟩ : BufTy).Contents (Elt F) → (⟨S8192x801, .f32⟩ : BufTy).Contents (Elt F) → (⟨S8192x801, .f32⟩ : BufTy).Contents (Elt F)),
    binary main_v11 main_v20 main_v21 (subf : (⟨S8192x801, .f32⟩ : BufTy).Contents (Elt F) → (⟨S8192x801, .f32⟩ : BufTy).Contents (Elt F) → (⟨S8192x801, .f32⟩ : BufTy).Contents (Elt F)),
    nullary main_cst_4 (constant S_ .f32 0x3F4CCCCD#32),
    unary main_cst_4 main_v22 (broadcastInDim S8192x801 ![] bcast_S_S8192x801 : (⟨S_, .f32⟩ : BufTy).Contents (Elt F) → (⟨S8192x801, .f32⟩ : BufTy).Contents (Elt F)),
    binary main_v21 main_v22 main_v23 (Host.divf : (⟨S8192x801, .f32⟩ : BufTy).Contents (Elt F) → (⟨S8192x801, .f32⟩ : BufTy).Contents (Elt F) → (⟨S8192x801, .f32⟩ : BufTy).Contents (Elt F)),
    unary main_v23 main_v24 (Host.exp : (⟨S8192x801, .f32⟩ : BufTy).Contents (Elt F) → (⟨S8192x801, .f32⟩ : BufTy).Contents (Elt F)),
    nullary main_cst_5 (constant S_ .f32 0x3F4CCCCD#32),
    unary main_cst_5 main_v25 (broadcastInDim S8192x801 ![] bcast_S_S8192x801 : (⟨S_, .f32⟩ : BufTy).Contents (Elt F) → (⟨S8192x801, .f32⟩ : BufTy).Contents (Elt F)),
    binary main_v24 main_v25 main_v26 (Host.divf : (⟨S8192x801, .f32⟩ : BufTy).Contents (Elt F) → (⟨S8192x801, .f32⟩ : BufTy).Contents (Elt F) → (⟨S8192x801, .f32⟩ : BufTy).Contents (Elt F)),
    unary main_v26 main_v27 (Host.exp : (⟨S8192x801, .f32⟩ : BufTy).Contents (Elt F) → (⟨S8192x801, .f32⟩ : BufTy).Contents (Elt F)),
    nullary main_cst_6 (constant S_ .f32 0x00000000#32),
    binary main_v27 main_cst_6 main_v28 ((fun x v => Host.reduceAdd x v reducesTo_S8192x801_S8192_d1 h_S_) : (⟨S8192x801, .f32⟩ : BufTy).Contents (Elt F) → (⟨S_, .f32⟩ : BufTy).Contents (Elt F) → (⟨S8192, .f32⟩ : BufTy).Contents (Elt F)),
    unary main_v28 main_v29 (broadcastInDim S8192x1 ![0] bcast_S8192_S8192x1_0 : (⟨S8192, .f32⟩ : BufTy).Contents (Elt F) → (⟨S8192x1, .f32⟩ : BufTy).Contents (Elt F)),
    unary main_v29 main_v30 (broadcastInDim S8192x801 ![0, 1] bcast_S8192x1_S8192x801_0_1 : (⟨S8192x1, .f32⟩ : BufTy).Contents (Elt F) → (⟨S8192x801, .f32⟩ : BufTy).Contents (Elt F)),
    binary main_v27 main_v30 main_v31 (Host.divf : (⟨S8192x801, .f32⟩ : BufTy).Contents (Elt F) → (⟨S8192x801, .f32⟩ : BufTy).Contents (Elt F) → (⟨S8192x801, .f32⟩ : BufTy).Contents (Elt F)),
    nullary main_c_7 (constantI S_ 32 0#32),
    unary main_c_7 main_v32 (broadcastInDim S8192 ![] bcast_S_S8192 : (⟨S_, .i32⟩ : BufTy).Contents (Elt F) → (⟨S8192, .i32⟩ : BufTy).Contents (Elt F)),
    binary main_v1 main_v32 main_v33 (cmpi .slt : (⟨S8192, .i32⟩ : BufTy).Contents (Elt F) → (⟨S8192, .i32⟩ : BufTy).Contents (Elt F) → (⟨S8192, .i1⟩ : BufTy).Contents (Elt F)),
    nullary main_c_8 (constantI S_ 32 32000#32),
    unary main_c_8 main_v34 (broadcastInDim S8192 ![] bcast_S_S8192 : (⟨S_, .i32⟩ : BufTy).Contents (Elt F) → (⟨S8192, .i32⟩ : BufTy).Contents (Elt F)),
    binary main_v1 main_v34 main_v35 (addi : (⟨S8192, .i32⟩ : BufTy).Contents (Elt F) → (⟨S8192, .i32⟩ : BufTy).Contents (Elt F) → (⟨S8192, .i32⟩ : BufTy).Contents (Elt F)),
    ternary main_v33 main_v35 main_v1 main_v36 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v36 main_v37 (broadcastInDim S8192x1 ![0] bcast_S8192_S8192x1_0 : (⟨S8192, .i32⟩ : BufTy).Contents (Elt F) → (⟨S8192x1, .i32⟩ : BufTy).Contents (Elt F)),
    binary main_arg5 main_v37 main_v38 ((fun x i => Host.gather gather_S32000x801_S8192x1_S8192x801_1_0_n_n_0_1_1801 x i) : (⟨S32000x801, .i32⟩ : BufTy).Contents (Elt F) → (⟨S8192x1, .i32⟩ : BufTy).Contents (Elt F) → (⟨S8192x801, .i32⟩ : BufTy).Contents (Elt F)) ]

/-- Operations 51 to 72: `lp` read at the stored columns. -/
private abbrev opsB : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S8192x801, .i32⟩) main_call0_v0) (broadcastInDim S8192x801 ![] bcast_S_S8192x801),
    TRef.binary (TRef.of (T := ⟨S8192x801, .i32⟩) main_v38) (TRef.of (T := ⟨S8192x801, .i32⟩) main_call0_v0) (TRef.of (T := ⟨S8192x801, .i1⟩) main_call0_v1) (cmpi .slt),
    TRef.nullary (TRef.of (T := ⟨S_, .i32⟩) main_call0_c_0) (constantI S_ 32 32000#32),
    TRef.unary (TRef.of (T := ⟨S_, .i32⟩) main_call0_c_0) (TRef.of (T := ⟨S8192x801, .i32⟩) main_call0_v2) (broadcastInDim S8192x801 ![] bcast_S_S8192x801),
    TRef.binary (TRef.of (T := ⟨S8192x801, .i32⟩) main_v38) (TRef.of (T := ⟨S8192x801, .i32⟩) main_call0_v2) (TRef.of (T := ⟨S8192x801, .i32⟩) main_call0_v3) addi,
    TRef.ternary (TRef.of (T := ⟨S8192x801, .i1⟩) main_call0_v1) (TRef.of (T := ⟨S8192x801, .i32⟩) main_call0_v3) (TRef.of (T := ⟨S8192x801, .i32⟩) main_v38) (TRef.of (T := ⟨S8192x801, .i32⟩) main_call0_v4) select,
    TRef.reshape (TRef.of (T := ⟨S8192x801, .i32⟩) main_call0_v4) (TRef.of (T := ⟨S8192x801x1, .i32⟩) main_call0_v5) rfl shapeCasts_S8192x801_S8192x801x1,
    TRef.nullary (TRef.of (T := ⟨S1, .i32⟩) main_call0_c_1) (constantI S1 32 31999#32),
    TRef.nullary (TRef.of (T := ⟨S_, .i32⟩) main_call0_c_2) (constantI S_ 32 0#32),
    TRef.unary (TRef.of (T := ⟨S_, .i32⟩) main_call0_c_2) (TRef.of (T := ⟨S8192x801x1, .i32⟩) main_call0_v6) (broadcastInDim S8192x801x1 ![] bcast_S_S8192x801x1),
    TRef.binary (TRef.of (T := ⟨S8192x801x1, .i32⟩) main_call0_v5) (TRef.of (T := ⟨S8192x801x1, .i32⟩) main_call0_v6) (TRef.of (T := ⟨S8192x801x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S8192x801x1, .i32⟩) main_call0_v9) (broadcastInDim S8192x801x1 ![0, 1, 2] bcast_S1x1x1_S8192x801x1_0_1_2),
    TRef.binary (TRef.of (T := ⟨S8192x801x1, .i32⟩) main_call0_v5) (TRef.of (T := ⟨S8192x801x1, .i32⟩) main_call0_v9) (TRef.of (T := ⟨S8192x801x1, .i1⟩) main_call0_v10) (cmpi .sle),
    TRef.binary (TRef.of (T := ⟨S8192x801x1, .i1⟩) main_call0_v7) (TRef.of (T := ⟨S8192x801x1, .i1⟩) main_call0_v10) (TRef.of (T := ⟨S8192x801x1, .i1⟩) main_call0_v11) andi,
    TRef.nullary (TRef.of (T := ⟨S_, .i1⟩) main_call0_c_3) (constantI S_ 1 1#1),
    TRef.binary (TRef.of (T := ⟨S8192x801x1, .i1⟩) main_call0_v11) (TRef.of (T := ⟨S_, .i1⟩) main_call0_c_3) (TRef.of (T := ⟨S8192x801, .i1⟩) main_call0_v12) (fun x v => Host.reduce IntOp.andi x v reducesTo_S8192x801x1_S8192x801_d2 h_S_),
    TRef.binary (TRef.of (T := ⟨S8192x32000, .f32⟩) main_v0) (TRef.of (T := ⟨S8192x801x1, .i32⟩) main_call0_v5) (TRef.of (T := ⟨S8192x801, .f32⟩) main_call0_v13) (fun x i => Host.gather gather_S8192x32000_S8192x801x1_S8192x801_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S8192x801, .f32⟩) main_call0_v14) (broadcastInDim S8192x801 ![] bcast_S_S8192x801),
    TRef.ternary (TRef.of (T := ⟨S8192x801, .i1⟩) main_call0_v12) (TRef.of (T := ⟨S8192x801, .f32⟩) main_call0_v13) (TRef.of (T := ⟨S8192x801, .f32⟩) main_call0_v14) (TRef.of (T := ⟨S8192x801, .f32⟩) main_v39) select ]

/-- Operations 73 to 80: the mask's sum, the first quotient, the targets as a column. -/
private abbrev opsC : List (HloOp τ sig (Elt F)) :=
  [ nullary main_cst_9 (constant S_ .f32 0x00000000#32),
    binary main_v2 main_cst_9 main_v40 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    binary main_v39 main_v31 main_v41 (mulf : (⟨S8192x801, .f32⟩ : BufTy).Contents (Elt F) → (⟨S8192x801, .f32⟩ : BufTy).Contents (Elt F) → (⟨S8192x801, .f32⟩ : BufTy).Contents (Elt F)),
    nullary main_cst_10 (constant S_ .f32 0x00000000#32),
    binary main_v41 main_cst_10 main_v42 ((fun x v => Host.reduceAdd x v reducesTo_S8192x801_S_d0_1 h_S_) : (⟨S8192x801, .f32⟩ : BufTy).Contents (Elt F) → (⟨S_, .f32⟩ : BufTy).Contents (Elt F) → (⟨S_, .f32⟩ : BufTy).Contents (Elt F)),
    unary main_v42 main_v43 (Host.negf : (⟨S_, .f32⟩ : BufTy).Contents (Elt F) → (⟨S_, .f32⟩ : BufTy).Contents (Elt F)),
    binary main_v43 main_v40 main_v44 (Host.divf : (⟨S_, .f32⟩ : BufTy).Contents (Elt F) → (⟨S_, .f32⟩ : BufTy).Contents (Elt F) → (⟨S_, .f32⟩ : BufTy).Contents (Elt F)),
    unary main_v1 main_v45 (broadcastInDim S8192x1 ![0] bcast_S8192_S8192x1_0 : (⟨S8192, .i32⟩ : BufTy).Contents (Elt F) → (⟨S8192x1, .i32⟩ : BufTy).Contents (Elt F)) ]

/-- Operations 81 to 102: `lp` read at the targets. -/
private abbrev opsD : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S8192x1, .i32⟩) main_call1_v0) (broadcastInDim S8192x1 ![] bcast_S_S8192x1),
    TRef.binary (TRef.of (T := ⟨S8192x1, .i32⟩) main_v45) (TRef.of (T := ⟨S8192x1, .i32⟩) main_call1_v0) (TRef.of (T := ⟨S8192x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S8192x1, .i32⟩) main_call1_v2) (broadcastInDim S8192x1 ![] bcast_S_S8192x1),
    TRef.binary (TRef.of (T := ⟨S8192x1, .i32⟩) main_v45) (TRef.of (T := ⟨S8192x1, .i32⟩) main_call1_v2) (TRef.of (T := ⟨S8192x1, .i32⟩) main_call1_v3) addi,
    TRef.ternary (TRef.of (T := ⟨S8192x1, .i1⟩) main_call1_v1) (TRef.of (T := ⟨S8192x1, .i32⟩) main_call1_v3) (TRef.of (T := ⟨S8192x1, .i32⟩) main_v45) (TRef.of (T := ⟨S8192x1, .i32⟩) main_call1_v4) select,
    TRef.reshape (TRef.of (T := ⟨S8192x1, .i32⟩) main_call1_v4) (TRef.of (T := ⟨S8192x1x1, .i32⟩) main_call1_v5) rfl shapeCasts_S8192x1_S8192x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S8192x1x1, .i32⟩) main_call1_v6) (broadcastInDim S8192x1x1 ![] bcast_S_S8192x1x1),
    TRef.binary (TRef.of (T := ⟨S8192x1x1, .i32⟩) main_call1_v5) (TRef.of (T := ⟨S8192x1x1, .i32⟩) main_call1_v6) (TRef.of (T := ⟨S8192x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8192x1x1, .i32⟩) main_call1_v9) (broadcastInDim S8192x1x1 ![0, 1, 2] bcast_S1x1x1_S8192x1x1_0_1_2),
    TRef.binary (TRef.of (T := ⟨S8192x1x1, .i32⟩) main_call1_v5) (TRef.of (T := ⟨S8192x1x1, .i32⟩) main_call1_v9) (TRef.of (T := ⟨S8192x1x1, .i1⟩) main_call1_v10) (cmpi .sle),
    TRef.binary (TRef.of (T := ⟨S8192x1x1, .i1⟩) main_call1_v7) (TRef.of (T := ⟨S8192x1x1, .i1⟩) main_call1_v10) (TRef.of (T := ⟨S8192x1x1, .i1⟩) main_call1_v11) andi,
    TRef.nullary (TRef.of (T := ⟨S_, .i1⟩) main_call1_c_3) (constantI S_ 1 1#1),
    TRef.binary (TRef.of (T := ⟨S8192x1x1, .i1⟩) main_call1_v11) (TRef.of (T := ⟨S_, .i1⟩) main_call1_c_3) (TRef.of (T := ⟨S8192x1, .i1⟩) main_call1_v12) (fun x v => Host.reduce IntOp.andi x v reducesTo_S8192x1x1_S8192x1_d2 h_S_),
    TRef.binary (TRef.of (T := ⟨S8192x32000, .f32⟩) main_v0) (TRef.of (T := ⟨S8192x1x1, .i32⟩) main_call1_v5) (TRef.of (T := ⟨S8192x1, .f32⟩) main_call1_v13) (fun x i => Host.gather gather_S8192x32000_S8192x1x1_S8192x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8192x1, .f32⟩) main_call1_v14) (broadcastInDim S8192x1 ![] bcast_S_S8192x1),
    TRef.ternary (TRef.of (T := ⟨S8192x1, .i1⟩) main_call1_v12) (TRef.of (T := ⟨S8192x1, .f32⟩) main_call1_v13) (TRef.of (T := ⟨S8192x1, .f32⟩) main_call1_v14) (TRef.of (T := ⟨S8192x1, .f32⟩) main_v46) select ]

/-- Operations 103 to 113: the second quotient and the weighted sum of the two. -/
private abbrev opsE : List (HloOp τ sig (Elt F)) :=
  [ reshape main_v46 main_v47 rfl shapeCasts_S8192x1_S8192,
    binary main_v47 main_v2 main_v48 (mulf : (⟨S8192, .f32⟩ : BufTy).Contents (Elt F) → (⟨S8192, .f32⟩ : BufTy).Contents (Elt F) → (⟨S8192, .f32⟩ : BufTy).Contents (Elt F)),
    nullary main_cst_11 (constant S_ .f32 0x00000000#32),
    binary main_v48 main_cst_11 main_v49 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v49 main_v50 (Host.negf : (⟨S_, .f32⟩ : BufTy).Contents (Elt F) → (⟨S_, .f32⟩ : BufTy).Contents (Elt F)),
    binary main_v50 main_v40 main_v51 (Host.divf : (⟨S_, .f32⟩ : BufTy).Contents (Elt F) → (⟨S_, .f32⟩ : BufTy).Contents (Elt F) → (⟨S_, .f32⟩ : BufTy).Contents (Elt F)),
    nullary main_cst_12 (constant S_ .f32 0x3F333333#32),
    binary main_cst_12 main_v44 main_v52 (mulf : (⟨S_, .f32⟩ : BufTy).Contents (Elt F) → (⟨S_, .f32⟩ : BufTy).Contents (Elt F) → (⟨S_, .f32⟩ : BufTy).Contents (Elt F)),
    nullary main_cst_13 (constant S_ .f32 0x3E99999A#32),
    binary main_cst_13 main_v51 main_v53 (mulf : (⟨S_, .f32⟩ : BufTy).Contents (Elt F) → (⟨S_, .f32⟩ : BufTy).Contents (Elt F) → (⟨S_, .f32⟩ : BufTy).Contents (Elt F)),
    binary main_v52 main_v53 main_v54 (addf : (⟨S_, .f32⟩ : BufTy).Contents (Elt F) → (⟨S_, .f32⟩ : BufTy).Contents (Elt F) → (⟨S_, .f32⟩ : BufTy).Contents (Elt F)) ]

/-- The program's line is the five stages one after the other. -/
private theorem ops_split : (ops : List (HloOp τ sig (Elt F))) = opsA ++ (opsB ++ (opsC ++ (opsD ++ opsE))) := rfl

/-- The fold over the whole line is the five stages' folds, nested. -/
private theorem after_ops (V : Valuation τ sig (Elt F)) :
    after ops V = after opsE (after opsD (after opsC (after opsB (after opsA V)))) := by
  rw [ops_split, after_app, after_app, after_app, after_app]

local notation "dr(" r ")" => (Proc.devRef (τ := τ) Proc.tc r)

/-! ## Stage A: from the arguments to the merged `lp`, the flat targets and mask, the weights, the stored columns -/

private theorem stageA_v0 (V : Valuation τ sig (Elt F)) :
    after opsA V dr(main_v0) = (lpOf (V dr(main_arg0)) : FVec F SNV .f32) := by
  after_results_simp <;> rfl

private theorem stageA_v1 (V : Valuation τ sig (Elt F)) :
    after opsA V dr(main_v1) = (tflat (V dr(main_arg4)) : IVec SN 32) := by
  after_results_simp <;> rfl

private theorem stageA_v2 (V : Valuation τ sig (Elt F)) :
    after opsA V dr(main_v2) = (mOf (V dr(main_arg1)) : FVec F SN .f32) := by
  after_results_simp <;> rfl

private theorem stageA_v31 (V : Valuation τ sig (Elt F)) :
    after opsA V dr(main_v31)
      = (simOf (V dr(main_arg2)) (V dr(main_arg3)) (V dr(main_arg4)) : FVec F SNJ .f32) := by
  after_results_simp <;> rfl

private theorem stageA_v38 (V : Valuation τ sig (Elt F)) :
    after opsA V dr(main_v38) = (colsRaw (V dr(main_arg5)) (V dr(main_arg4)) : IVec SNJ 32) := by
  after_results_simp <;> rfl

/-! ## Stage B: `lp` read at the stored columns

Cut in three: the columns counted from the end where negative and given a unit axis; the range test, all of one
row's answers joined by `and`; the read itself and the choice between it and the fill value. -/

/-- A column number below zero counted from the end of the vocabulary. -/
private def colsFix (raw : IVec SNJ 32) : IVec SNJ 32 :=
  select (cmpi .slt raw (broadcastInDim SNJ ![] hb_0_NJ (constantI S0 32 0#32)))
    (addi raw (broadcastInDim SNJ ![] hb_0_NJ (constantI S0 32 32000#32))) raw

private abbrev opsB1 : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S8192x801, .i32⟩) main_call0_v0) (broadcastInDim S8192x801 ![] bcast_S_S8192x801),
    TRef.binary (TRef.of (T := ⟨S8192x801, .i32⟩) main_v38) (TRef.of (T := ⟨S8192x801, .i32⟩) main_call0_v0) (TRef.of (T := ⟨S8192x801, .i1⟩) main_call0_v1) (cmpi .slt),
    TRef.nullary (TRef.of (T := ⟨S_, .i32⟩) main_call0_c_0) (constantI S_ 32 32000#32),
    TRef.unary (TRef.of (T := ⟨S_, .i32⟩) main_call0_c_0) (TRef.of (T := ⟨S8192x801, .i32⟩) main_call0_v2) (broadcastInDim S8192x801 ![] bcast_S_S8192x801),
    TRef.binary (TRef.of (T := ⟨S8192x801, .i32⟩) main_v38) (TRef.of (T := ⟨S8192x801, .i32⟩) main_call0_v2) (TRef.of (T := ⟨S8192x801, .i32⟩) main_call0_v3) addi,
    TRef.ternary (TRef.of (T := ⟨S8192x801, .i1⟩) main_call0_v1) (TRef.of (T := ⟨S8192x801, .i32⟩) main_call0_v3) (TRef.of (T := ⟨S8192x801, .i32⟩) main_v38) (TRef.of (T := ⟨S8192x801, .i32⟩) main_call0_v4) select,
    TRef.reshape (TRef.of (T := ⟨S8192x801, .i32⟩) main_call0_v4) (TRef.of (T := ⟨S8192x801x1, .i32⟩) main_call0_v5) rfl shapeCasts_S8192x801_S8192x801x1 ]

private abbrev opsB2 : List (HloOp τ sig (Elt F)) :=
  [ TRef.nullary (TRef.of (T := ⟨S1, .i32⟩) main_call0_c_1) (constantI S1 32 31999#32),
    TRef.nullary (TRef.of (T := ⟨S_, .i32⟩) main_call0_c_2) (constantI S_ 32 0#32),
    TRef.unary (TRef.of (T := ⟨S_, .i32⟩) main_call0_c_2) (TRef.of (T := ⟨S8192x801x1, .i32⟩) main_call0_v6) (broadcastInDim S8192x801x1 ![] bcast_S_S8192x801x1),
    TRef.binary (TRef.of (T := ⟨S8192x801x1, .i32⟩) main_call0_v5) (TRef.of (T := ⟨S8192x801x1, .i32⟩) main_call0_v6) (TRef.of (T := ⟨S8192x801x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S8192x801x1, .i32⟩) main_call0_v9) (broadcastInDim S8192x801x1 ![0, 1, 2] bcast_S1x1x1_S8192x801x1_0_1_2),
    TRef.binary (TRef.of (T := ⟨S8192x801x1, .i32⟩) main_call0_v5) (TRef.of (T := ⟨S8192x801x1, .i32⟩) main_call0_v9) (TRef.of (T := ⟨S8192x801x1, .i1⟩) main_call0_v10) (cmpi .sle),
    TRef.binary (TRef.of (T := ⟨S8192x801x1, .i1⟩) main_call0_v7) (TRef.of (T := ⟨S8192x801x1, .i1⟩) main_call0_v10) (TRef.of (T := ⟨S8192x801x1, .i1⟩) main_call0_v11) andi,
    TRef.nullary (TRef.of (T := ⟨S_, .i1⟩) main_call0_c_3) (constantI S_ 1 1#1),
    TRef.binary (TRef.of (T := ⟨S8192x801x1, .i1⟩) main_call0_v11) (TRef.of (T := ⟨S_, .i1⟩) main_call0_c_3) (TRef.of (T := ⟨S8192x801, .i1⟩) main_call0_v12) (fun x v => Host.reduce IntOp.andi x v reducesTo_S8192x801x1_S8192x801_d2 h_S_) ]

private abbrev opsB3 : List (HloOp τ sig (Elt F)) :=
  [ TRef.binary (TRef.of (T := ⟨S8192x32000, .f32⟩) main_v0) (TRef.of (T := ⟨S8192x801x1, .i32⟩) main_call0_v5) (TRef.of (T := ⟨S8192x801, .f32⟩) main_call0_v13) (fun x i => Host.gather gather_S8192x32000_S8192x801x1_S8192x801_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S8192x801, .f32⟩) main_call0_v14) (broadcastInDim S8192x801 ![] bcast_S_S8192x801),
    TRef.ternary (TRef.of (T := ⟨S8192x801, .i1⟩) main_call0_v12) (TRef.of (T := ⟨S8192x801, .f32⟩) main_call0_v13) (TRef.of (T := ⟨S8192x801, .f32⟩) main_call0_v14) (TRef.of (T := ⟨S8192x801, .f32⟩) main_v39) select ]

private theorem opsB_split : (opsB : List (HloOp τ sig (Elt F))) = opsB1 ++ (opsB2 ++ opsB3) := rfl

private theorem stageB1_v5 (V : Valuation τ sig (Elt F)) :
    after opsB1 V dr(main_call0_v5) = (shapeCast SNJ1 (colsFix (V dr(main_v38))) hc_NJ_NJ1 : IVec SNJ1 32) := by
  after_results_simp <;> (try simp only [TRef.ofBuf, TRef.toBuf, cast_eq]) <;> rfl
private theorem stageB1_v0 (V : Valuation τ sig (Elt F)) : after opsB1 V dr(main_v0) = V dr(main_v0) := by
  after_results_simp

private theorem stageB2_v12 (V : Valuation τ sig (Elt F)) :
    after opsB2 V dr(main_call0_v12)
      = (Host.reduce IntOp.andi
          (andi (cmpi .sge (V dr(main_call0_v5) : IVec SNJ1 32) (broadcastInDim SNJ1 ![] hb_0_NJ1 (constantI S0 32 0#32)))
            (cmpi .sle (V dr(main_call0_v5) : IVec SNJ1 32)
              (broadcastInDim SNJ1 ![0, 1, 2] hb_111_NJ1 (broadcastInDim S111 ![2] hb_1_111 (constantI S1v 32 31999#32)))))
          (constantI S0 1 1#1) hr_NJ1_NJ h0 : IVec SNJ 1) := by
  after_results_simp <;> (try simp only [TRef.ofBuf, TRef.toBuf, cast_eq]) <;> rfl
private theorem stageB2_v0 (V : Valuation τ sig (Elt F)) : after opsB2 V dr(main_v0) = V dr(main_v0) := by
  after_results_simp
private theorem stageB2_v5 (V : Valuation τ sig (Elt F)) : after opsB2 V dr(main_call0_v5) = V dr(main_call0_v5) := by
  after_results_simp

private theorem stageB3_v39 (V : Valuation τ sig (Elt F)) :
    after opsB3 V dr(main_v39)
      = (select (V dr(main_call0_v12) : IVec SNJ 1)
          (Host.gather gdTake (V dr(main_v0) : FVec F SNV .f32) (V dr(main_call0_v5) : IVec SNJ1 32))
          (broadcastInDim SNJ ![] hb_0_NJ (constant S0 .f32 0x7FC00000#32)) : FVec F SNJ .f32) := by
  after_results_simp <;> (try simp only [TRef.ofBuf, TRef.toBuf, cast_eq]) <;> rfl

private theorem stageB_v39 (V : Valuation τ sig (Elt F)) :
    after opsB V dr(main_v39) = (takeCols (V dr(main_v0)) (colsFix (V dr(main_v38))) : FVec F SNJ .f32) := by
  rw [opsB_split, after_app, after_app, stageB3_v39, stageB2_v12, stageB2_v0, stageB2_v5, stageB1_v5, stageB1_v0]
  rfl

private theorem stageB_v0 (V : Valuation τ sig (Elt F)) : after opsB V dr(main_v0) = V dr(main_v0) := by
  after_results_simp
private theorem stageB_v1 (V : Valuation τ sig (Elt F)) : after opsB V dr(main_v1) = V dr(main_v1) := by
  after_results_simp
private theorem stageB_v2 (V : Valuation τ sig (Elt F)) : after opsB V dr(main_v2) = V dr(main_v2) := by
  after_results_simp
private theorem stageB_v31 (V : Valuation τ sig (Elt F)) : after opsB V dr(main_v31) = V dr(main_v31) := by
  after_results_simp

/-! ## Stage C: the mask's sum, the first quotient, the targets as a column -/

private theorem stageC_v40 (V : Valuation τ sig (Elt F)) :
    after opsC V dr(main_v40)
      = (Host.reduceAdd (V dr(main_v2) : FVec F SN .f32) (constant S0 .f32 0x00000000#32) hr_N_0 h0 : FVec F S0 .f32) := by
  after_results <;> rfl

private theorem stageC_v44 (V : Valuation τ sig (Elt F)) :
    after opsC V dr(main_v44)
      = (Host.divf (Host.negf (Host.reduceAdd (mulf (V dr(main_v39) : FVec F SNJ .f32) (V dr(main_v31)))
            (constant S0 .f32 0x00000000#32) hr_NJ_0 h0))
          (Host.reduceAdd (V dr(main_v2) : FVec F SN .f32) (constant S0 .f32 0x00000000#32) hr_N_0 h0) : FVec F S0 .f32) := by
  after_results <;> rfl

private theorem stageC_v45 (V : Valuation τ sig (Elt F)) :
    after opsC V dr(main_v45) = (broadcastInDim SN1 ![0] hb_N_N1 (V dr(main_v1) : IVec SN 32) : IVec SN1 32) := by
  after_results <;> rfl

private theorem stageC_v0 (V : Valuation τ sig (Elt F)) : after opsC V dr(main_v0) = V dr(main_v0) := by
  after_results
private theorem stageC_v2 (V : Valuation τ sig (Elt F)) : after opsC V dr(main_v2) = V dr(main_v2) := by
  after_results

/-! ## Stage D: `lp` read at the targets -/

/-- A target below zero counted from the end of the vocabulary, as a column. -/
private def rowsFix (col : IVec SN1 32) : IVec SN1 32 :=
  select (cmpi .slt col (broadcastInDim SN1 ![] hb_0_N1 (constantI S0 32 0#32)))
    (addi col (broadcastInDim SN1 ![] hb_0_N1 (constantI S0 32 32000#32))) col

/-- `lp` at a column of targets (a fill value where one is out of range): `takeRows` over any column. -/
private def takeRowsAt (lp : FVec F SNV .f32) (col : IVec SN1 32) : FVec F SN1 .f32 :=
  select
    (Host.reduce IntOp.andi
      (andi (cmpi .sge (shapeCast SN11 (rowsFix col) hc_N1_N11) (broadcastInDim SN11 ![] hb_0_N11 (constantI S0 32 0#32)))
        (cmpi .sle (shapeCast SN11 (rowsFix col) hc_N1_N11)
          (broadcastInDim SN11 ![0, 1, 2] hb_111_N11 (broadcastInDim S111 ![2] hb_1_111 (constantI S1v 32 31999#32)))))
      (constantI S0 1 1#1) hr_N11_N1 h0)
    (Host.gather gdTake1 lp (shapeCast SN11 (rowsFix col) hc_N1_N11))
    (broadcastInDim SN1 ![] hb_0_N1 (constant S0 .f32 0x7FC00000#32))

private theorem stageD_v46 (V : Valuation τ sig (Elt F)) :
    after opsD V dr(main_v46) = (takeRowsAt (V dr(main_v0)) (V dr(main_v45)) : FVec F SN1 .f32) := by
  after_results_simp <;> rfl

private theorem stageD_v2 (V : Valuation τ sig (Elt F)) : after opsD V dr(main_v2) = V dr(main_v2) := by
  after_results_simp
private theorem stageD_v40 (V : Valuation τ sig (Elt F)) : after opsD V dr(main_v40) = V dr(main_v40) := by
  after_results_simp
private theorem stageD_v44 (V : Valuation τ sig (Elt F)) : after opsD V dr(main_v44) = V dr(main_v44) := by
  after_results_simp

/-! ## Stage E: the second quotient and the weighted sum of the two -/

private theorem stageE_v54 (V : Valuation τ sig (Elt F)) :
    after opsE V dr(main_v54)
      = (addf (mulf (constant S0 .f32 0x3F333333#32) (V dr(main_v44)))
          (mulf (constant S0 .f32 0x3E99999A#32)
            (Host.divf (Host.negf (Host.reduceAdd
              (mulf (shapeCast SN (V dr(main_v46) : FVec F SN1 .f32) hc_N1_N) (V dr(main_v2)))
              (constant S0 .f32 0x00000000#32) hr_N_0 h0)) (V dr(main_v40)))) : FVec F S0 .f32) := by
  after_results <;> rfl

/-! ## The stages composed -/

/-- The result buffer after the whole line: each stage's result read at what the stage before left, down to the
    arguments; the columns and the targets counted from the end are `colsOf` and `rows1` by their definitions. -/
private theorem value_eq (V : Valuation τ sig (Elt F)) :
    after ops V dr(main_v54)
      = (refRes (V dr(main_arg0)) (V dr(main_arg1)) (V dr(main_arg2)) (V dr(main_arg3)) (V dr(main_arg4))
          (V dr(main_arg5)) : FVec F S0 .f32) := by
  rw [after_ops, stageE_v54, stageD_v46, stageD_v44, stageD_v2, stageD_v40,
    stageC_v44, stageC_v40, stageC_v45, stageC_v0, stageC_v2,
    stageB_v39, stageB_v0, stageB_v1, stageB_v2, stageB_v31,
    stageA_v0, stageA_v1, stageA_v2, stageA_v31, stageA_v38]
  rfl

/-! ## The arguments: no operation writes one -/

private theorem arg0_eq (V : Valuation τ sig (Elt F)) : after ops V dr(main_arg0) = V dr(main_arg0) := by
  after_results_simp
private theorem arg1_eq (V : Valuation τ sig (Elt F)) : after ops V dr(main_arg1) = V dr(main_arg1) := by
  after_results_simp
private theorem arg2_eq (V : Valuation τ sig (Elt F)) : after ops V dr(main_arg2) = V dr(main_arg2) := by
  after_results_simp
private theorem arg3_eq (V : Valuation τ sig (Elt F)) : after ops V dr(main_arg3) = V dr(main_arg3) := by
  after_results_simp
private theorem arg4_eq (V : Valuation τ sig (Elt F)) : after ops V dr(main_arg4) = V dr(main_arg4) := by
  after_results_simp
private theorem arg5_eq (V : Valuation τ sig (Elt F)) : after ops V dr(main_arg5) = V dr(main_arg5) := by
  after_results_simp

/-- Every weakly fair execution of the reference program terminates with its result at `refRes` of the arguments'
    launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
        = refRes (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_)
    (run_seq scopedRefs_eq scopedSems_eq defs main (fun _ => ops) main_eq (fun _ => ops_sub) m ρ)
  exact ⟨(h c main_v54).trans (value_eq (launchContents m c)), (h c main_arg0).trans (arg0_eq (launchContents m c)),
    (h c main_arg1).trans (arg1_eq (launchContents m c)), (h c main_arg2).trans (arg2_eq (launchContents m c)),
    (h c main_arg3).trans (arg3_eq (launchContents m c)), (h c main_arg4).trans (arg4_eq (launchContents m c)),
    (h c main_arg5).trans (arg5_eq (launchContents m c))⟩

end Cert.ReferenceIdeal.WS

end
-- ==== Proof.PreFacts.lean ====
/-
  The precondition, read: it is a conjunction of nine tests, each reduced with `and` over a whole array — `|x| < ∞`
  for the four float inputs, `0 ≤ i` and `i < 32000` for the two index inputs — and the test that the mask's sum is
  not zero. All ones means every float entry is a real number, every index is in `[0, 32000)`, and `∑ m ≠ 0`.
-/
import proofs.«413760_j5755256177154_1_alg».proof.Defs
import proofs.«413760_j5755256177154_1_alg».proof.Proof.Gen.KernelIdeal
import proofs.«413760_j5755256177154_1_alg».proof.Proof.Gen.Pre_finite_inputs
import proofs.«413760_j5755256177154_1_alg».proof.Proof.Spec
import Idealize.ShloMosaic.Lib.ReduceAll
import Idealize.ShloMosaic.Lib.StableHlo.Predicate
import Idealize.ShloMosaic.Lib.ValueIdx

noncomputable section

namespace Cert.Proof.WS

open Idealize.ShloMosaic Idealize.ShloMosaic.TcCoe Idealize.SL.Sem

/-- A boolean as a one-bit word is 1 exactly when it is true. -/
private theorem ofBool_one (b : Bool) : BitVec.ofBool b = 1#1 ↔ b = true := by cases b <;> decide

/-- `|x| < ∞` on the extended reals, `|x| = max x (−x)` and `∞` the word 0x7F800000: `x` is neither `⊥` nor `⊤`
    (at either, `max x (−x) = ⊤`), so it is a real number. -/
private theorem real_of_abs_lt (x : EReal)
    (h : FloatOps.cmpf (F := Ideal) (φ := .f32) .olt (FloatOps.hostAbsf (F := Ideal) (φ := .f32) x)
      (Ideal.ofBits .f32 0x7F800000#32) = 1#1) :
    ∃ r : ℝ, x = (r : EReal) := by
  have hT : Ideal.ofBits .f32 0x7F800000#32 = (⊤ : EReal) := by simp [Ideal.ofBits, Ideal.ieee]
  rw [hT] at h
  change BitVec.ofBool (decide (max x (-x) < (⊤ : EReal))) = 1#1 at h
  rw [ofBool_one, decide_eq_true_eq] at h
  induction x using EReal.rec with
  | bot => simp at h
  | coe r => exact ⟨r, rfl⟩
  | top => simp at h

/-- A word that is `≥ 0` and `< 32000`, both signed: its signed value is in `[0, 32000)`. -/
private theorem range_of (w : BitVec 32) (h0 : IntOp.cmpi .sge w 0#32 = 1#1) (h1 : IntOp.cmpi .slt w 32000#32 = 1#1) :
    0 ≤ w.toInt ∧ w.toInt < 32000 := by
  unfold IntOp.cmpi at h0 h1
  rw [ofBool_one] at h0 h1
  simp only [BitVec.slt, BitVec.sle, decide_eq_true_eq] at h0 h1
  exact ⟨by simpa using h0, by simpa using h1⟩

/-- On the extended reals "unordered or not equal" is "not equal": there is no unordered pair. -/
private theorem ne_of_une (x y : EReal) (h : FloatOps.cmpf (F := Ideal) (φ := .f32) .une x y = 1#1) : x ≠ y := by
  change BitVec.ofBool (decide (x ≠ y)) = 1#1 at h
  rwa [ofBool_one, decide_eq_true_eq] at h

/-- The nine tests, over any six arrays of the arguments' shapes. The test's one result is the `and` of nine words;
    each of the first eight is an `and` over a whole array, so it is 1 only if every entry's test is 1; the ninth
    compares `∑ m` with 0, and that sum is the same sum as `denomOf`'s (the mask flattened to [8192], summed from 0). -/
private theorem good_of_fn (a0 : FVec Ideal Cert.WSmooth.SLp3 .f32) (a1 : FVec Ideal Cert.WSmooth.SMk .f32)
    (a2 a3 : FVec Ideal Cert.WSmooth.STab .f32) (a4 : IVec Cert.WSmooth.SMk 32) (a5 : IVec Cert.WSmooth.STab 32)
    (e : Cert.Pre_finite_inputs.fn (F := Ideal) a0 a1 a2 a3 a4 a5 = fun _ => 1#1) :
    Cert.WSmooth.Good a0 a1 a2 a3 a4 a5 := by
  -- a rank-0 array has one index
  haveI : Subsingleton Cert.Pre_finite_inputs.S_.Idx := ⟨fun a b => funext fun d => d.elim0⟩
  have e0 := congrFun e ValueIdx.ix0
  unfold Cert.Pre_finite_inputs.fn Cert.Pre_finite_inputs.fn_part1 Cert.Pre_finite_inputs.fn_part2 at e0
  dsimp only at e0
  -- an `and` of one-bit words is 1 exactly when both are
  simp only [andi, IntOp.andi_eq_one] at e0
  obtain ⟨⟨⟨⟨⟨⟨⟨⟨h0, h1⟩, h2⟩, h3⟩, h4a⟩, h4b⟩, h5a⟩, h5b⟩, hd⟩ := e0
  -- an `and` over all of an array that is 1 met a 1 at every index
  have k0 := Host.reduce_andi_all _ _ _ _ _ h0
  have k1 := Host.reduce_andi_all _ _ _ _ _ h1
  have k2 := Host.reduce_andi_all _ _ _ _ _ h2
  have k3 := Host.reduce_andi_all _ _ _ _ _ h3
  have k4a := Host.reduce_andi_all _ _ _ _ _ h4a
  have k4b := Host.reduce_andi_all _ _ _ _ _ h4b
  have k5a := Host.reduce_andi_all _ _ _ _ _ h5a
  have k5b := Host.reduce_andi_all _ _ _ _ _ h5b
  have hz : Ideal.ofBits .f32 0x00000000#32 = (0 : EReal) := by simp [Ideal.ofBits, Ideal.ieee]
  -- at index i each comparison against a broadcast scalar reads the scalar
  refine ⟨fun i => real_of_abs_lt _ (k0 i), fun i => real_of_abs_lt _ (k1 i), fun i => real_of_abs_lt _ (k2 i),
    fun i => real_of_abs_lt _ (k3 i), fun i => range_of _ (k4a i) (k4b i), fun i => range_of _ (k5a i) (k5b i), fun i => ?_⟩
  rw [ValueIdx.eq_ix0 i]
  have hne := ne_of_une _ _ hd
  intro hc
  exact hne (hc.trans hz.symm)

theorem good_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.WSmooth.Good
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) :=
  good_of_fn _ _ _ _ _ _ (h c)

end Cert.Proof.WS

end
-- ==== Proof.Algebra.lean ====
/-
  The law that joins the two programs, over the extended reals.

  Weights `u p` (p in a finite set U₁) land on entries `e₁ p` of a finite set I, and weights `w q` (q in U₂) on `e₂ q`.
  Summing `lp i` times everything that lands on `i` over all of I is summing, over the weights, `lp` at where each
  lands: each weight is counted once, at its own entry. With every number real, multiplication distributes over
  these sums, the common factors α and β come out, and a real `d ≠ 0` divides both sides alike.
-/
import Idealize.ShloMosaic.PureOps.Ideal
import Mathlib.Data.EReal.Basic
import Mathlib.Algebra.BigOperators.Group.Finset.Basic
import Mathlib.Algebra.BigOperators.Ring.Finset
import Mathlib.Tactic.Ring

noncomputable section

namespace Cert.WSmooth

open Idealize.ShloMosaic

/-- The coercion of a finite real sum is the sum of the coercions: induction on the index set, one
    `EReal.coe_add` per inserted term. -/
private theorem coe_finsum {ι : Type} (s : Finset ι) (f : ι → ℝ) :
    ((∑ i ∈ s, f i : ℝ) : EReal) = ∑ i ∈ s, (f i : EReal) := by
  classical
  induction s using Finset.induction_on with
  | empty => simp
  | insert x s hx ih => rw [Finset.sum_insert hx, Finset.sum_insert hx, EReal.coe_add, ih]

/-- Over the reals: `lp i` times the weights `c · u p` landing on `i`, summed over all `i`, is `c` times
    the sum over the weights of `lp (e p) · u p`. On the fibre over `i` one has `lp i = lp (e p)`; the fibres
    of `e` partition the weights, so each is counted once. -/
private theorem fibre_sum {I U : Type} [Fintype I] [DecidableEq I] [Fintype U]
    (lp : I → ℝ) (u : U → ℝ) (c : ℝ) (e : U → I) :
    ∑ i, lp i * ∑ p ∈ Finset.univ.filter (fun p => e p = i), c * u p = c * ∑ p, lp (e p) * u p := by
  have h : ∀ i, lp i * ∑ p ∈ Finset.univ.filter (fun p => e p = i), c * u p
      = ∑ p ∈ Finset.univ.filter (fun p => e p = i), c * (lp (e p) * u p) := by
    intro i
    rw [Finset.mul_sum]
    refine Finset.sum_congr rfl (fun p hp => ?_)
    rw [(Finset.mem_filter.mp hp).2]
    ring
  rw [Finset.sum_congr rfl (fun i _ => h i), Finset.sum_fiberwise, Finset.mul_sum]

/-- `−(∑ i, lp i · ((0 + ∑ over p landing on i of a · sim p) + ∑ over q landing on i of b · mk q)) / d
      = a · (−(0 + ∑ p, lp (e₁ p) · sim p) / d) + b · (−(0 + ∑ q, lp (e₂ q) · mk q) / d)`
    for real entries and a real `d ≠ 0`. -/
theorem spread_eq_read {I U1 U2 : Type} [Fintype I] [DecidableEq I] [Fintype U1] [Fintype U2]
    (lp : I → EReal) (sim : U1 → EReal) (mk : U2 → EReal) (a b d : EReal) (e1 : U1 → I) (e2 : U2 → I)
    (hlp : ∀ i, ∃ r : ℝ, lp i = (r : EReal)) (hsim : ∀ p, ∃ r : ℝ, sim p = (r : EReal))
    (hmk : ∀ q, ∃ r : ℝ, mk q = (r : EReal)) (ha : ∃ r : ℝ, a = (r : EReal)) (hb : ∃ r : ℝ, b = (r : EReal))
    (hd : ∃ r : ℝ, r ≠ 0 ∧ d = (r : EReal)) :
    Ideal.div (-(∑ i, lp i * ((0 + ∑ p ∈ Finset.univ.filter (fun p => e1 p = i), a * sim p)
        + ∑ q ∈ Finset.univ.filter (fun q => e2 q = i), b * mk q))) d
      = a * Ideal.div (-(0 + ∑ p, lp (e1 p) * sim p)) d + b * Ideal.div (-(0 + ∑ q, lp (e2 q) * mk q)) d := by
  classical
  -- every entry is the coercion of a real
  choose lpr hlpr using hlp
  choose sr hsr using hsim
  choose mr hmr using hmk
  obtain ⟨ar, rfl⟩ := ha
  obtain ⟨br, rfl⟩ := hb
  obtain ⟨dr, hdr, rfl⟩ := hd
  obtain rfl : lp = fun i => (lpr i : EReal) := funext hlpr
  obtain rfl : sim = fun p => (sr p : EReal) := funext hsr
  obtain rfl : mk = fun q => (mr q : EReal) := funext hmr
  -- division by a nonzero real is multiplication by its reciprocal; then both sides are coercions of reals
  simp only [Ideal.div_coe hdr, zero_add, ← EReal.coe_mul, ← coe_finsum, ← EReal.coe_add, ← EReal.coe_neg]
  congr 1
  -- in ℝ: distribute `lp i` over the two fibre sums, count each weight once, and take α, β and 1/d out
  simp only [mul_add, Finset.sum_add_distrib, fibre_sum]
  ring

end Cert.WSmooth

end
-- ==== Proof.Sums.lean ====
/-
  A host sum over every axis of an array, started from zero, is zero plus the sum of all its entries: every entry
  reduces to the one index of the scalar result.
-/
import proofs.«413760_j5755256177154_1_alg».proof.Proof.Spec
import Idealize.ShloMosaic.PureOps.Ideal.Laws

noncomputable section

namespace Cert.WSmooth

open Idealize.ShloMosaic

/-- The sum of a [8192, 801] array over both axes. The result has no axis, so every entry reduces to its one index;
    the initial value is the zero word. -/
theorem reduceAll_NJ (x : FVec Ideal SNJ .f32) (i : S0.Idx) :
    (Host.reduceAdd x (constant S0 .f32 0x00000000#32) hr_NJ_0 h0 i : EReal) = 0 + ∑ p : SNJ.Idx, (x p : EReal) := by
  have h : (Host.reduceAdd x (constant S0 .f32 0x00000000#32) hr_NJ_0 h0 i : EReal)
      = Ideal.hostReduceAdd hr_NJ_0 x (Ideal.ofBits .f32 0x00000000#32) i := rfl
  rw [h, Ideal.hostReduceAdd_total hr_NJ_0 (fun b => b.elim0), Ideal.ofBits_zero_f32]

/-- The sum of a [8192] array. -/
theorem reduceAll_N (x : FVec Ideal SN .f32) (i : S0.Idx) :
    (Host.reduceAdd x (constant S0 .f32 0x00000000#32) hr_N_0 h0 i : EReal) = 0 + ∑ q : SN.Idx, (x q : EReal) := by
  have h : (Host.reduceAdd x (constant S0 .f32 0x00000000#32) hr_N_0 h0 i : EReal)
      = Ideal.hostReduceAdd hr_N_0 x (Ideal.ofBits .f32 0x00000000#32) i := rfl
  rw [h, Ideal.hostReduceAdd_total hr_N_0 (fun b => b.elim0), Ideal.ofBits_zero_f32]

end Cert.WSmooth

end
-- ==== Proof.Scatter.lean ====
/-
  The spread weights at an entry. An accumulating scatter adds each update at the entry its index pair names and drops
  the pairs outside the array; here every pair is (its own position, a column in range), so nothing is dropped and the
  weight of (position, neighbour) `p` lands on `landCols p`, the weight of position `q` on `landRows q`.
-/
import proofs.«413760_j5755256177154_1_alg».proof.Proof.Spec
import Idealize.ShloMosaic.Lib.Pipeline.Value
import Idealize.ShloMosaic.PureOps.Ideal.Laws

noncomputable section

namespace Cert.WSmooth

open Idealize.ShloMosaic

variable {lp3 : FVec Ideal SLp3 .f32} {mk : FVec Ideal SMk .f32} {sv iv : FVec Ideal STab .f32}
  {tg : IVec SMk 32} {sc : IVec STab 32}

/-- An update lands at `r` when, on every axis, start plus window coordinate is `r`'s coordinate. -/
private theorem resultIdx?_eq_some {s si u : Shape} (d : ScatterDims s si u) {w : Nat} (j : u.Idx) (idx : IVec si w) (r : s.Idx)
    (h : ∀ a, d.start j idx a + (d.window j a : Int) = ((r a).val : Int)) : d.resultIdx? j idx = some r := by
  unfold ScatterDims.resultIdx?
  rw [dif_pos (fun a => by rw [h a]; exact ⟨Int.natCast_nonneg _, by exact_mod_cast (r a).isLt⟩)]
  congr 1
  funext a
  apply Fin.ext
  show (d.start j idx a + (d.window j a : Int)).toNat = (r a).val
  rw [h a]; rfl

/-- Entry (n, j, 0) of [8192, 801, 1]. -/
private def nj1 (p : SNJ.Idx) : SNJ1.Idx := fun a => match a with
  | ⟨0, _⟩ => p 0
  | ⟨1, _⟩ => p 1
  | ⟨2, _⟩ => (0 : Fin 1)

/-- Entry (n, 0) of [8192, 1]. -/
private def n1 (q : SN.Idx) : SN1.Idx := fun a => match a with
  | ⟨0, _⟩ => q 0
  | ⟨1, _⟩ => (0 : Fin 1)

/-! ### Words that are not negative -/

/-- "Count a negative one from the end" keeps a word that is not negative. -/
private theorem wrap_of_nonneg (x c : BitVec 32) (h : 0 ≤ x.toInt) :
    Scalar.select (IntOp.cmpi .slt x 0#32) (IntOp.addi x c) x = x := by
  have hs : x.slt 0#32 = false := by
    rw [BitVec.slt]; simp only [BitVec.toInt_zero]; exact decide_eq_false (not_lt.2 h)
  show (if BitVec.ofBool (x.slt 0#32) = 1 then IntOp.addi x c else x) = x
  rw [hs]; rfl

/-- A word in [0, 32000) read signed is its unsigned value, which the reduction modulo 32000 keeps. -/
private theorem toInt_eq_mod (x : BitVec 32) (h0 : 0 ≤ x.toInt) (h1 : x.toInt < 32000) :
    x.toInt = ((x.toNat % 32000 : Nat) : Int) := by
  have hx := x.isLt
  rw [BitVec.toInt_eq_toNat_cond] at h0 h1 ⊢
  split at h0 <;> split <;> omega

/-- A position number below 8192, as a word, read signed, is itself. -/
private theorem toInt_ofNat_pos (n : Nat) (h : n < 8192) : (BitVec.ofNat 32 n).toInt = (n : Int) := by
  rw [BitVec.toInt_eq_toNat_cond, BitVec.toNat_ofNat]
  have : n % 2 ^ 32 = n := Nat.mod_eq_of_lt (by omega)
  rw [this]; split <;> omega

/-! ### The index pairs -/

/-- The position number of (position, neighbour) `p` is `p`'s position: no position number is negative. -/
private theorem posJ_apply (p : SNJ.Idx) : posJ p = BitVec.ofNat 32 (p 0).val :=
  wrap_of_nonneg (BitVec.ofNat 32 (p 0).val) 8192#32
    (by rw [toInt_ofNat_pos _ (p 0).isLt]; exact Int.natCast_nonneg _)

/-- The position number of position `q` is `q`. -/
private theorem posOf_apply (q : SN.Idx) : posOf q = BitVec.ofNat 32 (q 0).val :=
  wrap_of_nonneg (BitVec.ofNat 32 (q 0).val) 8192#32
    (by rw [toInt_ofNat_pos _ (q 0).isLt]; exact Int.natCast_nonneg _)

/-- A stored column is an entry of the column table, so it is in [0, 32000). -/
private theorem colsRaw_range (G : Good lp3 mk sv iv tg sc) (p : SNJ.Idx) :
    0 ≤ (colsRaw sc tg p).toInt ∧ (colsRaw sc tg p).toInt < 32000 :=
  G.scB _

/-- No stored column is negative, so none is counted from the end. -/
private theorem colsOf_apply (G : Good lp3 mk sv iv tg sc) (p : SNJ.Idx) : colsOf sc tg p = colsRaw sc tg p :=
  wrap_of_nonneg (colsRaw sc tg p) 32000#32 (colsRaw_range G p).1

/-- A flat target is an entry of the targets, so it is in [0, 32000). -/
private theorem tflat_range (G : Good lp3 mk sv iv tg sc) (q : SN.Idx) :
    0 ≤ (tflat tg q).toInt ∧ (tflat tg q).toInt < 32000 :=
  G.tgB _

/-- No target is negative, so none is counted from the end. -/
private theorem rowsOf_apply (G : Good lp3 mk sv iv tg sc) (q : SN.Idx) : rowsOf tg q = tflat tg q :=
  wrap_of_nonneg (tflat tg q) 32000#32 (tflat_range G q).1

/-- Component 0 of the pair of (position, neighbour) `p` is its position number: the first piece of the
    concatenation along the last axis. -/
private theorem idxCols_zero (p : SNJ.Idx) (h : 0 < sdCols.scatterDimsToOperandDims.length) :
    idxCols sc tg (sdCols.siIdx p ⟨0, h⟩) = posJ p := by
  refine (concatenate_pair_apply_left (t := SNJ2) (s₁ := SNJ1) (s₂ := SNJ1) (2 : Fin 3) _ _ hcat_NJ2
    (sdCols.siIdx p ⟨0, h⟩) rfl (nj1 p)
    (fun b => by match b with | ⟨0, _⟩ => rfl | ⟨1, _⟩ => rfl | ⟨2, _⟩ => rfl)).trans ?_
  show posJ _ = posJ p
  congr 1
  funext a
  match a with
  | ⟨0, _⟩ => rfl
  | ⟨1, _⟩ => rfl

/-- Component 1 of that pair is its column: the second piece. -/
private theorem idxCols_one (p : SNJ.Idx) (h : 1 < sdCols.scatterDimsToOperandDims.length) :
    idxCols sc tg (sdCols.siIdx p ⟨1, h⟩) = colsOf sc tg p := by
  refine (concatenate_pair_apply_right (t := SNJ2) (s₁ := SNJ1) (s₂ := SNJ1) (2 : Fin 3) _ _ hcat_NJ2
    (sdCols.siIdx p ⟨1, h⟩) rfl rfl (nj1 p)
    (fun b hb => by match b with | ⟨0, _⟩ => rfl | ⟨1, _⟩ => rfl | ⟨2, _⟩ => exact absurd rfl hb) rfl).trans ?_
  show colsOf sc tg _ = colsOf sc tg p
  congr 1
  funext a
  match a with
  | ⟨0, _⟩ => rfl
  | ⟨1, _⟩ => rfl

/-- Component 0 of the pair of position `q` is its position number. -/
private theorem idxRows_zero (q : SN.Idx) (h : 0 < sdRows.scatterDimsToOperandDims.length) :
    idxRows tg (sdRows.siIdx q ⟨0, h⟩) = posOf q := by
  refine (concatenate_pair_apply_left (t := SN2) (s₁ := SN1) (s₂ := SN1) (1 : Fin 2) _ _ hcat_N2
    (sdRows.siIdx q ⟨0, h⟩) rfl (n1 q)
    (fun b => by match b with | ⟨0, _⟩ => rfl | ⟨1, _⟩ => rfl)).trans ?_
  show posOf _ = posOf q
  congr 1
  funext a
  match a with
  | ⟨0, _⟩ => rfl

/-- Component 1 of that pair is its target. -/
private theorem idxRows_one (q : SN.Idx) (h : 1 < sdRows.scatterDimsToOperandDims.length) :
    idxRows tg (sdRows.siIdx q ⟨1, h⟩) = rowsOf tg q := by
  refine (concatenate_pair_apply_right (t := SN2) (s₁ := SN1) (s₂ := SN1) (1 : Fin 2) _ _ hcat_N2
    (sdRows.siIdx q ⟨1, h⟩) rfl rfl (n1 q)
    (fun b hb => by match b with | ⟨0, _⟩ => rfl | ⟨1, _⟩ => exact absurd rfl hb) rfl).trans ?_
  show rowsOf tg _ = rowsOf tg q
  congr 1
  funext a
  match a with
  | ⟨0, _⟩ => rfl

/-! ### Where the updates land -/

/-- The weight of (position, neighbour) `p` lands on `landCols p`: both axes are inserted, so the window
    coordinate is 0 and the landing index is the pair read signed; the row is `p`'s position, the column the
    stored column, in range. -/
private theorem cols_lands (G : Good lp3 mk sv iv tg sc) (p : SNJ.Idx) :
    sdCols.resultIdx? p (idxCols sc tg) = some (landCols sc tg p) := by
  apply resultIdx?_eq_some
  intro a
  match a with
  | ⟨0, _⟩ =>
    have e : idxCols sc tg (sdCols.siIdx p ⟨0, by decide⟩) = BitVec.ofNat 32 (p 0).val :=
      (idxCols_zero p _).trans (posJ_apply p)
    show (idxCols sc tg (sdCols.siIdx p ⟨0, by decide⟩)).toInt + ((0 : Nat) : Int) = (((p 0).val : Nat) : Int)
    rw [e, toInt_ofNat_pos _ (p 0).isLt]; rfl
  | ⟨1, _⟩ =>
    have e : idxCols sc tg (sdCols.siIdx p ⟨1, by decide⟩) = colsRaw sc tg p :=
      (idxCols_one p _).trans (colsOf_apply G p)
    show (idxCols sc tg (sdCols.siIdx p ⟨1, by decide⟩)).toInt + ((0 : Nat) : Int)
      = (((colsRaw sc tg p).toNat % 32000 : Nat) : Int)
    rw [e, ← toInt_eq_mod _ (colsRaw_range G p).1 (colsRaw_range G p).2]; exact Int.add_zero _

/-- The weight of position `q` lands on `landRows q`. -/
private theorem rows_lands (G : Good lp3 mk sv iv tg sc) (q : SN.Idx) :
    sdRows.resultIdx? q (idxRows tg) = some (landRows tg q) := by
  apply resultIdx?_eq_some
  intro a
  match a with
  | ⟨0, _⟩ =>
    have e : idxRows tg (sdRows.siIdx q ⟨0, by decide⟩) = BitVec.ofNat 32 (q 0).val :=
      (idxRows_zero q _).trans (posOf_apply q)
    show (idxRows tg (sdRows.siIdx q ⟨0, by decide⟩)).toInt + ((0 : Nat) : Int) = (((q 0).val : Nat) : Int)
    rw [e, toInt_ofNat_pos _ (q 0).isLt]; rfl
  | ⟨1, _⟩ =>
    have e : idxRows tg (sdRows.siIdx q ⟨1, by decide⟩) = tflat tg q :=
      (idxRows_one q _).trans (rowsOf_apply G q)
    show (idxRows tg (sdRows.siIdx q ⟨1, by decide⟩)).toInt + ((0 : Nat) : Int)
      = (((tflat tg q).toNat % 32000 : Nat) : Int)
    rw [e, ← toInt_eq_mod _ (tflat_range G q).1 (tflat_range G q).2]; exact Int.add_zero _

/-- Entry `i` of the spread weights: zero, plus α times the neighbour weights landing on `i`, plus β times the
    mask of the positions whose target is `i`. -/
theorem wtot_apply (G : Good lp3 mk sv iv tg sc) (i : SNV.Idx) :
    (wtotOf (F := Ideal) sv iv mk tg sc i : EReal)
      = (0 + ∑ p ∈ Finset.univ.filter (fun p : SNJ.Idx => landCols sc tg p = i), cA * (simOf (F := Ideal) sv iv tg p : EReal))
        + ∑ q ∈ Finset.univ.filter (fun q : SN.Idx => landRows tg q = i), cB * (mOf (F := Ideal) mk q : EReal) := by
  have hC : ∀ p : SNJ.Idx, sdCols.resultIdx? p (idxCols sc tg) = some i ↔ landCols sc tg p = i := fun p => by
    rw [cols_lands G p, Option.some.injEq]
  have hR : ∀ q : SN.Idx, sdRows.resultIdx? q (idxRows tg) = some i ↔ landRows tg q = i := fun q => by
    rw [rows_lands G q, Option.some.injEq]
  unfold wtotOf Host.scatterAdd
  rw [Ideal.hostScatterAdd_def, Ideal.hostScatterAdd_def]
  unfold Ideal.hostScatterAdd
  refine congrArg₂ (· + ·) (congrArg₂ (· + ·) ?_
    (Finset.sum_congr (Finset.filter_congr fun p _ => hC p) fun _ _ => rfl))
    (Finset.sum_congr (Finset.filter_congr fun q _ => hR q) fun _ _ => rfl)
  exact Ideal.ofBits_zero_f32

end Cert.WSmooth

end
-- ==== Proof.Take.lean ====
/-
  Reading `lp` where the weights point. The read along each position's row takes the entry at the start index clamped
  into the row, and a fill value where the index is outside `[0, 31999]`; with every column and target in range the
  range test passes everywhere and the entry read is the one the weight lands on.
-/
import proofs.«413760_j5755256177154_1_alg».proof.Proof.Spec
import Idealize.ShloMosaic.Lib.ValueIdx
import Idealize.ShloMosaic.Lib.Pipeline.Value
import Idealize.ShloMosaic.Lib.Affine
import Idealize.ShloMosaic.PureOps.Reduce

noncomputable section

namespace Cert.WSmooth

open Idealize.ShloMosaic Idealize.ShloMosaic.ValueIdx

/-! ## Words in range -/

/-- A word whose signed value is in `[0, 32000)` passes the test `0 ≤ c ∧ c ≤ 31999`. -/
private theorem inRange_one (c : BitVec 32) (h0 : 0 ≤ c.toInt) (h1 : c.toInt < 32000) :
    IntOp.andi (IntOp.cmpi .sge c 0#32) (IntOp.cmpi .sle c 31999#32) = 1#1 := by
  rw [IntOp.andi_eq_one, IntOp.cmpi_sge, IntOp.cmpi_sle]
  have e0 : (0#32 : BitVec 32).toInt = 0 := by decide
  have e1 : (31999#32 : BitVec 32).toInt = 31999 := by decide
  rw [e0, e1]; exact ⟨h0, by omega⟩

/-- Counting a negative word from the end leaves a non-negative word as it is. -/
private theorem wrap_of_nonneg (c : BitVec 32) (h0 : 0 ≤ c.toInt) :
    Scalar.select (IntOp.cmpi .slt c 0#32) (IntOp.addi c 32000#32) c = c := by
  have h : ¬ IntOp.cmpi .slt c 0#32 = 1#1 := by
    rw [IntOp.cmpi_slt, show (0#32 : BitVec 32).toInt = 0 from by decide]; omega
  rw [eq_zero_of_ne_one h, select_zero]

/-- A word whose signed value is in `[0, 32000)` reads the same signed and unsigned, below 32000. -/
private theorem toNat_of_range (c : BitVec 32) (h0 : 0 ≤ c.toInt) (h1 : c.toInt < 32000) :
    c.toInt.toNat = c.toNat ∧ c.toNat < 32000 := by
  have hc := BitVec.toInt_eq_toNat_cond c
  have hlt : c.toNat < 2 ^ 32 := c.isLt
  split at hc <;> omega

/-! ## A conjunction of ones -/

/-- A left fold by `and` from 1 over words that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = (1#1 : BitVec 1) from by decide]
    exact foldl_andi_one f l fun n hn => h n (List.mem_cons_of_mem _ hn)

/-- A reduction by `and` from 1 of an array whose every entry is 1 is 1 at every result index: the result is the left
    fold over the entries that reduce into that index. -/
private theorem reduce_andi_one {s t u : Shape} {axes : List (Fin s.rank)} (x : s.Idx → BitVec 1) (init : u.Idx → BitVec 1)
    (h : s.ReducesTo axes t) (hu : 0 < u.numel) (j : t.Idx) (hinit : ∀ i, init i = 1#1) (hx : ∀ i, x i = 1#1) :
    Host.reduce IntOp.andi x init h hu j = 1#1 := by
  rw [Host.reduce_eq_foldl, hinit]
  exact foldl_andi_one x _ fun i _ => hx i

/-! ## The read per (position, neighbour)

The operand index of result index `(n, j)` is, per operand axis, start + batching coordinate + offset coordinate. Axis 0
is the batching axis: start 0, batching coordinate `n`, no offset. Axis 1 is collapsed and the one start-indexed axis:
its start is the start index at `(n, j, 0)` read signed and clamped into `[0, 32000 − 1]`, nothing else added. -/

private theorem c_start0 (idx : IVec SNJ1 32) (n : Fin 8192) (j : Fin 801) : gdTake.start (ix2 n j) idx 0 = 0 := rfl
private theorem c_batch0 (n : Fin 8192) (j : Fin 801) : gdTake.batchCoord (ix2 n j) 0 = n.val := rfl
private theorem c_off0 (n : Fin 8192) (j : Fin 801) : gdTake.offCoord (ix2 n j) 0 = 0 := rfl
private theorem c_batch1 (n : Fin 8192) (j : Fin 801) : gdTake.batchCoord (ix2 n j) 1 = 0 := rfl
private theorem c_off1 (n : Fin 8192) (j : Fin 801) : gdTake.offCoord (ix2 n j) 1 = 0 := rfl

private theorem c_start1 (idx : IVec SNJ1 32) (n : Fin 8192) (j : Fin 801) :
    gdTake.start (ix2 n j) idx 1 = min (idx (ix3 n j 0)).toInt.toNat 31999 := by
  have hm : (1 : Fin SNV.rank) ∈ gdTake.startIndexMap := by decide
  -- the start index's one component is read at the result's two batch coordinates, 0 on the index vector's axis
  have hsi : gdTake.siIdx (ix2 n j) ⟨List.idxOf (1 : Fin SNV.rank) gdTake.startIndexMap, List.idxOf_lt_length_iff.2 hm⟩
      = ix3 n j 0 := by
    funext b
    match b with
    | ⟨0, _⟩ => rfl
    | ⟨1, _⟩ => rfl
    | ⟨2, _⟩ => rfl
  unfold GatherDims.start
  rw [dif_pos hm, hsi]
  rfl

/-- Result index `(n, j)` reads row `n` at the clamped start index. -/
private theorem take_operandIdx (idx : IVec SNJ1 32) (n : Fin 8192) (j : Fin 801) :
    gdTake.operandIdx (ix2 n j) idx = nv n ⟨min (idx (ix3 n j 0)).toInt.toNat 31999, by omega⟩ := by
  funext a
  match a with
  | ⟨0, _⟩ =>
    refine Fin.ext ?_
    show gdTake.start (ix2 n j) idx 0 + gdTake.batchCoord (ix2 n j) 0 + gdTake.offCoord (ix2 n j) 0 = n.val
    rw [c_start0, c_batch0, c_off0]; omega
  | ⟨1, _⟩ =>
    refine Fin.ext ?_
    show gdTake.start (ix2 n j) idx 1 + gdTake.batchCoord (ix2 n j) 1 + gdTake.offCoord (ix2 n j) 1
      = min (idx (ix3 n j 0)).toInt.toNat 31999
    rw [c_start1, c_batch1, c_off1]; omega

/-- [8192, 801] viewed [8192, 801, 1]: the same row-major position, `(n·801 + j)·1 + 0 = n·801 + j`. -/
private theorem cast_NJ1_apply {α : Type} (x : SNJ.Idx → α) (n : Fin 8192) (j : Fin 801) (u : Fin 1) :
    shapeCast SNJ1 x hc_NJ_NJ1 (ix3 n j u) = x (ix2 n j) :=
  shapeCast_apply x hc_NJ_NJ1 _ _ (by
    have hu : u.val = 0 := by omega
    rw [Shape.rowMajor_val_three, Shape.rowMajor_val_two]
    show n.val * 801 + j.val = (n.val * 801 + j.val) * 1 + u.val
    omega)

/-- With every column in range the range test is 1 at every (position, neighbour). -/
private theorem mask_cols (cw : IVec SNJ 32) (hcw : ∀ p, 0 ≤ (cw p).toInt ∧ (cw p).toInt < 32000) (p : SNJ.Idx) :
    Host.reduce IntOp.andi
      (andi (cmpi .sge (shapeCast SNJ1 cw hc_NJ_NJ1) (broadcastInDim SNJ1 ![] hb_0_NJ1 (constantI S0 32 0#32)))
        (cmpi .sle (shapeCast SNJ1 cw hc_NJ_NJ1)
          (broadcastInDim SNJ1 ![0, 1, 2] hb_111_NJ1 (broadcastInDim S111 ![2] hb_1_111 (constantI S1v 32 31999#32)))))
      (constantI S0 1 1#1) hr_NJ1_NJ h0 p = 1#1 :=
  reduce_andi_one _ _ _ _ _ (fun _ => rfl) fun i => by
    -- each entry tests one column, the reshaped array's entry at `i`, against the two constants
    show IntOp.andi (IntOp.cmpi .sge (cw (Shape.reshapeEquiv hc_NJ_NJ1 i)) 0#32)
      (IntOp.cmpi .sle (cw (Shape.reshapeEquiv hc_NJ_NJ1 i)) 31999#32) = 1#1
    exact inRange_one _ (hcw _).1 (hcw _).2

/-- With every column in range, the read at `(n, j)` is `lp` at row `n`, column `cw (n, j)`: the test passes, the
    clamp into `[0, 31999]` is the identity, and the column is its own remainder by 32000. -/
private theorem takeCols_of_range (lp : FVec Ideal SNV .f32) (cw : IVec SNJ 32)
    (hcw : ∀ p, 0 ≤ (cw p).toInt ∧ (cw p).toInt < 32000) (n : Fin 8192) (j : Fin 801) :
    takeCols (F := Ideal) lp cw (ix2 n j) = lp (nv n ⟨(cw (ix2 n j)).toNat % 32000, Nat.mod_lt _ (by decide)⟩) := by
  obtain ⟨e, hlt⟩ := toNat_of_range _ (hcw (ix2 n j)).1 (hcw (ix2 n j)).2
  unfold takeCols
  rw [select_apply, mask_cols cw hcw, select_one]
  unfold Host.gather
  rw [take_operandIdx]
  exact congrArg lp (congrArg (nv n) (Fin.ext (by
    show min (shapeCast SNJ1 cw hc_NJ_NJ1 (ix3 n j 0)).toInt.toNat 31999 = (cw (ix2 n j)).toNat % 32000
    rw [cast_NJ1_apply, e, Nat.mod_eq_of_lt hlt]; omega)))

/-! ## The read per position

The same with one start index per position: result index `(n, 0)` of [8192, 1] reads row `n` at the start index at
`(n, 0, 0)`, clamped. -/

private theorem r_start0 (idx : IVec SN11 32) (n : Fin 8192) (u : Fin 1) : gdTake1.start (ix2 n u) idx 0 = 0 := rfl
private theorem r_batch0 (n : Fin 8192) (u : Fin 1) : gdTake1.batchCoord (ix2 n u) 0 = n.val := rfl
private theorem r_off0 (n : Fin 8192) (u : Fin 1) : gdTake1.offCoord (ix2 n u) 0 = 0 := rfl
private theorem r_batch1 (n : Fin 8192) (u : Fin 1) : gdTake1.batchCoord (ix2 n u) 1 = 0 := rfl
private theorem r_off1 (n : Fin 8192) (u : Fin 1) : gdTake1.offCoord (ix2 n u) 1 = 0 := rfl

private theorem r_start1 (idx : IVec SN11 32) (n : Fin 8192) (u : Fin 1) :
    gdTake1.start (ix2 n u) idx 1 = min (idx (ix3 n u 0)).toInt.toNat 31999 := by
  have hm : (1 : Fin SNV.rank) ∈ gdTake1.startIndexMap := by decide
  have hsi : gdTake1.siIdx (ix2 n u) ⟨List.idxOf (1 : Fin SNV.rank) gdTake1.startIndexMap, List.idxOf_lt_length_iff.2 hm⟩
      = ix3 n u 0 := by
    funext b
    match b with
    | ⟨0, _⟩ => rfl
    | ⟨1, _⟩ => rfl
    | ⟨2, _⟩ => rfl
  unfold GatherDims.start
  rw [dif_pos hm, hsi]
  rfl

private theorem take1_operandIdx (idx : IVec SN11 32) (n : Fin 8192) (u : Fin 1) :
    gdTake1.operandIdx (ix2 n u) idx = nv n ⟨min (idx (ix3 n u 0)).toInt.toNat 31999, by omega⟩ := by
  funext a
  match a with
  | ⟨0, _⟩ =>
    refine Fin.ext ?_
    show gdTake1.start (ix2 n u) idx 0 + gdTake1.batchCoord (ix2 n u) 0 + gdTake1.offCoord (ix2 n u) 0 = n.val
    rw [r_start0, r_batch0, r_off0]; omega
  | ⟨1, _⟩ =>
    refine Fin.ext ?_
    show gdTake1.start (ix2 n u) idx 1 + gdTake1.batchCoord (ix2 n u) 1 + gdTake1.offCoord (ix2 n u) 1
      = min (idx (ix3 n u 0)).toInt.toNat 31999
    rw [r_start1, r_batch1, r_off1]; omega

/-- [8192, 1] viewed [8192, 1, 1]: the same row-major position. -/
private theorem cast_N11_apply {α : Type} (x : SN1.Idx → α) (n : Fin 8192) (u v : Fin 1) :
    shapeCast SN11 x hc_N1_N11 (ix3 n u v) = x (ix2 n u) :=
  shapeCast_apply x hc_N1_N11 _ _ (by
    have hv : v.val = 0 := by omega
    rw [Shape.rowMajor_val_three, Shape.rowMajor_val_two]
    show n.val * 1 + u.val = (n.val * 1 + u.val) * 1 + v.val
    omega)

/-- [8192, 1] viewed [8192]: position `n` is entry `(n, 0)`. -/
private theorem cast_N1_N_apply {α : Type} (x : SN1.Idx → α) (n : Fin 8192) :
    shapeCast SN x hc_N1_N (ix1 n) = x (ix2 n 0) :=
  shapeCast_apply x hc_N1_N _ _ (by
    rw [Shape.rowMajor_val_two, Shape.rowMajor_val_one]
    show n.val * 1 + 0 = n.val
    omega)

/-- A flat array as a column: entry `(n, u)` is entry `n`. -/
private theorem bc_N_N1_apply {α : Type} (x : SN.Idx → α) (n : Fin 8192) (u : Fin 1) :
    broadcastInDim SN1 ![0] hb_N_N1 x (ix2 n u) = x (ix1 n) :=
  broadcastInDim_apply _ hb_N_N1 x _ _ fun a => match a with
    | ⟨0, _⟩ => rfl

/-- With every start index in range the range test is 1 at every position. -/
private theorem mask_rows (rw1 : IVec SN1 32) (hrw : ∀ r, 0 ≤ (rw1 r).toInt ∧ (rw1 r).toInt < 32000) (r : SN1.Idx) :
    Host.reduce IntOp.andi
      (andi (cmpi .sge (shapeCast SN11 rw1 hc_N1_N11) (broadcastInDim SN11 ![] hb_0_N11 (constantI S0 32 0#32)))
        (cmpi .sle (shapeCast SN11 rw1 hc_N1_N11)
          (broadcastInDim SN11 ![0, 1, 2] hb_111_N11 (broadcastInDim S111 ![2] hb_1_111 (constantI S1v 32 31999#32)))))
      (constantI S0 1 1#1) hr_N11_N1 h0 r = 1#1 :=
  reduce_andi_one _ _ _ _ _ (fun _ => rfl) fun i => by
    show IntOp.andi (IntOp.cmpi .sge (rw1 (Shape.reshapeEquiv hc_N1_N11 i)) 0#32)
      (IntOp.cmpi .sle (rw1 (Shape.reshapeEquiv hc_N1_N11 i)) 31999#32) = 1#1
    exact inRange_one _ (hrw _).1 (hrw _).2

variable {lp3 : FVec Ideal SLp3 .f32} {mk : FVec Ideal SMk .f32} {sv iv : FVec Ideal STab .f32}
  {tg : IVec SMk 32} {sc : IVec STab 32}

/-! ## On the domain -/

/-- A stored neighbour column is an entry of the column table, so it is in range. -/
private theorem colsRaw_range (G : Good lp3 mk sv iv tg sc) (p : SNJ.Idx) :
    0 ≤ (colsRaw sc tg p).toInt ∧ (colsRaw sc tg p).toInt < 32000 := G.scB _

/-- No stored column is negative, so counting from the end changes none. -/
private theorem colsOf_eq (G : Good lp3 mk sv iv tg sc) : colsOf sc tg = colsRaw sc tg := by
  funext p
  show Scalar.select (IntOp.cmpi .slt (colsRaw sc tg p) 0#32) (IntOp.addi (colsRaw sc tg p) 32000#32) (colsRaw sc tg p) = _
  exact wrap_of_nonneg _ (colsRaw_range G p).1

/-- A flat target is an entry of the targets, so it is in range. -/
private theorem tflat_range (G : Good lp3 mk sv iv tg sc) (q : SN.Idx) :
    0 ≤ (tflat tg q).toInt ∧ (tflat tg q).toInt < 32000 := G.tgB _

/-- The target column's entry `(n, u)` is position `n`'s target: none is negative. -/
private theorem rows1_eq (G : Good lp3 mk sv iv tg sc) (n : Fin 8192) (u : Fin 1) : rows1 tg (ix2 n u) = tflat tg (ix1 n) := by
  show Scalar.select (IntOp.cmpi .slt (broadcastInDim SN1 ![0] hb_N_N1 (tflat tg) (ix2 n u)) 0#32)
    (IntOp.addi (broadcastInDim SN1 ![0] hb_N_N1 (tflat tg) (ix2 n u)) 32000#32)
    (broadcastInDim SN1 ![0] hb_N_N1 (tflat tg) (ix2 n u)) = _
  rw [bc_N_N1_apply]
  exact wrap_of_nonneg _ (tflat_range G _).1

private theorem rows1_range (G : Good lp3 mk sv iv tg sc) (r : SN1.Idx) :
    0 ≤ (rows1 tg r).toInt ∧ (rows1 tg r).toInt < 32000 := by
  obtain ⟨n, u, rfl⟩ : ∃ (n : Fin 8192) (u : Fin 1), r = ix2 n u := ⟨r 0, r 1, eq_ix2 r⟩
  rw [rows1_eq G]
  exact tflat_range G _

/-- The read at `(n, 0)` is `lp` at row `n`, column the target of `n`. -/
private theorem takeRows_at (G : Good lp3 mk sv iv tg sc) (lp : FVec Ideal SNV .f32) (n : Fin 8192) :
    takeRows (F := Ideal) lp tg (ix2 n 0) = lp (nv n ⟨(tflat tg (ix1 n)).toNat % 32000, Nat.mod_lt _ (by decide)⟩) := by
  obtain ⟨e, hlt⟩ := toNat_of_range _ (tflat_range G (ix1 n)).1 (tflat_range G (ix1 n)).2
  unfold takeRows
  rw [select_apply, mask_rows _ (rows1_range G), select_one]
  unfold Host.gather
  rw [take1_operandIdx]
  exact congrArg lp (congrArg (nv n) (Fin.ext (by
    show min (shapeCast SN11 (rows1 tg) hc_N1_N11 (ix3 n 0 0)).toInt.toNat 31999 = (tflat tg (ix1 n)).toNat % 32000
    rw [cast_N11_apply, rows1_eq G, e, Nat.mod_eq_of_lt hlt]; omega)))

/-- `lp` read at a neighbour column is `lp` at where that neighbour's weight lands. -/
theorem takeCols_apply (G : Good lp3 mk sv iv tg sc) (p : SNJ.Idx) :
    (takeCols (F := Ideal) (lpOf lp3) (colsOf sc tg) p : EReal) = lpOf (F := Ideal) lp3 (landCols sc tg p) := by
  obtain ⟨n, j, rfl⟩ : ∃ (n : Fin 8192) (j : Fin 801), p = ix2 n j := ⟨p 0, p 1, eq_ix2 p⟩
  rw [colsOf_eq G]
  exact takeCols_of_range _ _ (colsRaw_range G) _ _

/-- `lp` read at the target is `lp` at where the position's own weight lands. -/
theorem takeRows_apply (G : Good lp3 mk sv iv tg sc) (q : SN.Idx) :
    (shapeCast SN (takeRows (F := Ideal) (lpOf lp3) tg) hc_N1_N q : EReal) = lpOf (F := Ideal) lp3 (landRows tg q) := by
  obtain ⟨n, rfl⟩ : ∃ n : Fin 8192, q = ix1 n := ⟨q 0, eq_ix1 q⟩
  rw [cast_N1_N_apply]
  exact takeRows_at G _ _

end Cert.WSmooth

end
-- ==== Proof.Reals.lean ====
/-
  Every number the law multiplies is real. A merge of axes and a row take only move entries, so they keep real
  entries real; `exp` of a real is a positive real, a quotient of reals by a non-zero real is real, so each
  `e n j = exp (exp ((s − 1 − τ·d) / τ) / τ)` is a positive real, each row's sum of them a positive real, and each
  normalised weight a real. The two float constants are dyadic rationals.
-/
import proofs.«413760_j5755256177154_1_alg».proof.Proof.Spec
import Idealize.ShloMosaic.PureOps.Ideal.Laws

noncomputable section

namespace Cert.WSmooth

open Idealize.ShloMosaic

variable {lp3 : FVec Ideal SLp3 .f32} {mk : FVec Ideal SMk .f32} {sv iv : FVec Ideal STab .f32}
  {tg : IVec SMk 32} {sc : IVec STab 32}

/-! ## The float constants as dyadic rationals -/

/-- The word of 1. -/
private theorem word_one : Ideal.ofBits .f32 0x3F800000#32 = ((1 : ℝ) : EReal) := by
  simp [Ideal.ofBits, Ideal.ieee, -EReal.coe_mul]
  norm_num

/-- The word of τ = 0.8: 13421773 · 2⁻²⁴. -/
private theorem word_tau : Ideal.ofBits .f32 0x3F4CCCCD#32 = ((13421773 / 16777216 : ℝ) : EReal) := by
  simp [Ideal.ofBits, Ideal.ieee, -EReal.coe_mul]
  norm_num

/-- The word of α = 0.7: 11744051 · 2⁻²⁴. -/
private theorem word_alpha : Ideal.ofBits .f32 0x3F333333#32 = ((11744051 / 16777216 : ℝ) : EReal) := by
  simp [Ideal.ofBits, Ideal.ieee, -EReal.coe_mul]
  norm_num

/-- The word of β = 0.3: 5033165 · 2⁻²⁴. -/
private theorem word_beta : Ideal.ofBits .f32 0x3E99999A#32 = ((5033165 / 16777216 : ℝ) : EReal) := by
  simp [Ideal.ofBits, Ideal.ieee, -EReal.coe_mul]
  norm_num

/-! ## Sums of reals -/

/-- A finite sum of reals, taken in the extended reals, is the real sum. -/
private theorem sum_coe {ι : Type} (s : Finset ι) (g : ι → ℝ) :
    ∑ i ∈ s, ((g i : ℝ) : EReal) = ((∑ i ∈ s, g i : ℝ) : EReal) :=
  (map_sum (⟨⟨Real.toEReal, EReal.coe_zero⟩, EReal.coe_add⟩ : ℝ →+ EReal) g s).symm

/-! ## Re-indexings keep real entries real -/

theorem lpOf_real (G : Good lp3 mk sv iv tg sc) (i : SNV.Idx) : ∃ r : ℝ, (lpOf (F := Ideal) lp3 i : EReal) = (r : EReal) :=
  G.lpR (Shape.reshapeEquiv hc_lp i)

theorem mOf_real (G : Good lp3 mk sv iv tg sc) (q : SN.Idx) : ∃ r : ℝ, (mOf (F := Ideal) mk q : EReal) = (r : EReal) :=
  G.mkR (Shape.reshapeEquiv hc_mk q)

/-! ## The weights -/

/-- Each `e n j = exp (exp ((s − 1 − τ·d) / τ) / τ)` is a positive real: `s` and `d` are entries of the two real
    tables (whichever row the take reads), the inner quotient is a real divided by τ ≠ 0, and `exp` of a real is a
    positive real. -/
private theorem valsOf_pos (G : Good lp3 mk sv iv tg sc) (p : SNJ.Idx) :
    ∃ r : ℝ, 0 < r ∧ (valsOf (F := Ideal) sv iv tg p : EReal) = (r : EReal) := by
  obtain ⟨s, hs⟩ := G.svR (gdRow.operandIdx p (broadcastInDim SN1 ![0] hb_N_N1 (rowsOf tg)))
  obtain ⟨d, hd⟩ := G.ivR (gdRow.operandIdx p (broadcastInDim SN1 ![0] hb_N_N1 (rowsOf tg)))
  have hτ : (13421773 / 16777216 : ℝ) ≠ 0 := by norm_num
  have h : (valsOf (F := Ideal) sv iv tg p : EReal)
      = Ideal.exp (Ideal.div (Ideal.exp (Ideal.div
          ((sv (gdRow.operandIdx p (broadcastInDim SN1 ![0] hb_N_N1 (rowsOf tg))) - Ideal.ofBits .f32 0x3F800000#32)
            - Ideal.ofBits .f32 0x3F4CCCCD#32 * iv (gdRow.operandIdx p (broadcastInDim SN1 ![0] hb_N_N1 (rowsOf tg))))
          (Ideal.ofBits .f32 0x3F4CCCCD#32))) (Ideal.ofBits .f32 0x3F4CCCCD#32)) := rfl
  rw [h, hs, hd, word_one, word_tau, ← EReal.coe_mul, ← EReal.coe_sub, ← EReal.coe_sub, Ideal.div_coe hτ, Ideal.div_coe hτ,
    ← EReal.coe_mul, Ideal.exp_coe, ← EReal.coe_mul, Ideal.exp_coe]
  exact ⟨_, Real.exp_pos _, rfl⟩

/-- Each row's sum of them, started from zero, is a positive real: a sum of 801 positive reals. -/
private theorem rowSum_pos (G : Good lp3 mk sv iv tg sc) (n : SN.Idx) :
    ∃ r : ℝ, 0 < r ∧
      (Host.reduceAdd (valsOf (F := Ideal) sv iv tg) (constant S0 .f32 0x00000000#32) hr_NJ_N h0 n : EReal) = (r : EReal) := by
  have hR : SNJ.Reduces [1] SN := by decide
  choose g hg0 hg using fun p => valsOf_pos G p
  have h : (Host.reduceAdd (valsOf (F := Ideal) sv iv tg) (constant S0 .f32 0x00000000#32) hr_NJ_N h0 n : EReal)
      = Ideal.hostReduceAdd hr_NJ_N (valsOf (F := Ideal) sv iv tg) (Ideal.ofBits .f32 0x00000000#32) n := rfl
  rw [h, Ideal.hostReduceAdd_single hr_NJ_N hR, Ideal.ofBits_zero_f32, zero_add]
  simp only [hg]
  rw [sum_coe]
  haveI : Nonempty (Fin (SNJ.size 1)) := ⟨⟨0, by decide⟩⟩
  exact ⟨_, Finset.sum_pos (fun k _ => hg0 _) Finset.univ_nonempty, rfl⟩

theorem simOf_real (G : Good lp3 mk sv iv tg sc) (p : SNJ.Idx) : ∃ r : ℝ, (simOf (F := Ideal) sv iv tg p : EReal) = (r : EReal) := by
  obtain ⟨a, -, ha⟩ := valsOf_pos G p
  -- the two broadcasts read the row sum at the position of `p`
  have h : ∃ n : SN.Idx, (simOf (F := Ideal) sv iv tg p : EReal)
      = Ideal.div (valsOf (F := Ideal) sv iv tg p)
          (Host.reduceAdd (valsOf (F := Ideal) sv iv tg) (constant S0 .f32 0x00000000#32) hr_NJ_N h0 n) := ⟨_, rfl⟩
  obtain ⟨n, hn⟩ := h
  obtain ⟨b, hb0, hb⟩ := rowSum_pos G n
  rw [hn, ha, hb, Ideal.div_coe hb0.ne', ← EReal.coe_mul]
  exact ⟨_, rfl⟩

/-! ## The two constants, and the mask's sum -/

theorem cA_real : ∃ r : ℝ, cA = (r : EReal) := ⟨_, word_alpha⟩

theorem cB_real : ∃ r : ℝ, cB = (r : EReal) := ⟨_, word_beta⟩

/-- The mask's sum is a real, and not zero on the domain. -/
theorem denom_real (G : Good lp3 mk sv iv tg sc) (i : S0.Idx) :
    ∃ r : ℝ, r ≠ 0 ∧ (denomOf (F := Ideal) mk i : EReal) = (r : EReal) := by
  choose g hg using fun q => mOf_real G q
  have h : (denomOf (F := Ideal) mk i : EReal)
      = Ideal.hostReduceAdd hr_N_0 (mOf (F := Ideal) mk) (Ideal.ofBits .f32 0x00000000#32) i := rfl
  have hd := G.den i
  rw [h, Ideal.hostReduceAdd_total hr_N_0 (fun b => b.elim0), Ideal.ofBits_zero_f32, zero_add] at hd ⊢
  simp only [hg] at hd ⊢
  rw [sum_coe] at hd ⊢
  exact ⟨_, EReal.coe_ne_zero.mp hd, rfl⟩

end Cert.WSmooth

end
-- ==== Proof.Bridge.lean ====
/-
  On the domain the two programs' results are one extended real: the spread weights read entry by entry, `lp` read
  where each weight lands, every number real, and the law of Algebra.lean.
-/
import proofs.«413760_j5755256177154_1_alg».proof.Proof.Algebra
import proofs.«413760_j5755256177154_1_alg».proof.Proof.Sums
import proofs.«413760_j5755256177154_1_alg».proof.Proof.Scatter
import proofs.«413760_j5755256177154_1_alg».proof.Proof.Take
import proofs.«413760_j5755256177154_1_alg».proof.Proof.Reals
import Idealize.ShloMosaic.Lib.ValueIdx

noncomputable section

namespace Cert.WSmooth

open Idealize.ShloMosaic

/-! ## The outer operations at the scalar's one index, over arbitrary arrays -/

/-- A product of two arrays at an entry. -/
theorem mulf_at {S : Shape} (A B : FVec Ideal S .f32) (p : S.Idx) : (mulf A B p : EReal) = (A p : EReal) * (B p : EReal) := rfl

/-- `−acc / D` with the [1, 1] accumulator read as a scalar. -/
theorem ker_shape (s : EReal) (D : FVec Ideal S0 .f32) (i : S0.Idx) :
    (Host.divf (Host.negf (shapeCast S0 (fun _ : S11.Idx => (s : Ideal .f32)) hc_11_0)) D i : EReal) = Ideal.div (-s) (D i : EReal) := rfl

/-- `α · (−X / D) + β · (−Y / D)`. -/
theorem ref_shape (X Y D : FVec Ideal S0 .f32) (i : S0.Idx) :
    (addf (mulf (constant S0 .f32 0x3F333333#32) (Host.divf (Host.negf X) D))
      (mulf (constant S0 .f32 0x3E99999A#32) (Host.divf (Host.negf Y) D)) i : EReal)
      = cA * Ideal.div (-(X i : EReal)) (D i : EReal) + cB * Ideal.div (-(Y i : EReal)) (D i : EReal) := rfl

variable {lp3 : FVec Ideal SLp3 .f32} {mk : FVec Ideal SMk .f32} {sv iv : FVec Ideal STab .f32}
  {tg : IVec SMk 32} {sc : IVec STab 32}

/-- The first program's result at the scalar's one index: minus the dot product, over the mask's sum. -/
theorem kerRes_apply (s : EReal) (i : S0.Idx) :
    (kerRes (F := Ideal) (fun _ => s) mk i : EReal) = Ideal.div (-s) (denomOf (F := Ideal) mk i : EReal) := by
  unfold kerRes
  exact ker_shape s _ i

/-- The sum the second program takes at the neighbour columns is the sum of `lp` where the weights land. -/
theorem sumCols_eq (G : Good lp3 mk sv iv tg sc) (j : S0.Idx) :
    (Host.reduceAdd (mulf (takeCols (F := Ideal) (lpOf lp3) (colsOf sc tg)) (simOf (F := Ideal) sv iv tg))
      (constant S0 .f32 0x00000000#32) hr_NJ_0 h0 j : EReal)
      = 0 + ∑ p : SNJ.Idx, (lpOf (F := Ideal) lp3 (landCols sc tg p) : EReal) * (simOf (F := Ideal) sv iv tg p : EReal) :=
  (reduceAll_NJ _ j).trans (congrArg (fun s : EReal => 0 + s) (Finset.sum_congr rfl fun p _ =>
    (mulf_at _ _ p).trans (congrArg (fun x : EReal => x * (simOf (F := Ideal) sv iv tg p : EReal)) (takeCols_apply G p))))

/-- The sum it takes at the targets likewise. -/
theorem sumRows_eq (G : Good lp3 mk sv iv tg sc) (j : S0.Idx) :
    (Host.reduceAdd (mulf (shapeCast SN (takeRows (F := Ideal) (lpOf lp3) tg) hc_N1_N) (mOf (F := Ideal) mk))
      (constant S0 .f32 0x00000000#32) hr_N_0 h0 j : EReal)
      = 0 + ∑ q : SN.Idx, (lpOf (F := Ideal) lp3 (landRows tg q) : EReal) * (mOf (F := Ideal) mk q : EReal) :=
  (reduceAll_N _ j).trans (congrArg (fun s : EReal => 0 + s) (Finset.sum_congr rfl fun q _ =>
    (mulf_at _ _ q).trans (congrArg (fun x : EReal => x * (mOf (F := Ideal) mk q : EReal)) (takeRows_apply G q))))

/-- The second program's result at the scalar's one index, the two reads of `lp` being where the weights land. -/
theorem refRes_apply (G : Good lp3 mk sv iv tg sc) (i : S0.Idx) :
    (refRes (F := Ideal) lp3 mk sv iv tg sc i : EReal)
      = cA * Ideal.div (-(0 + ∑ p : SNJ.Idx, (lpOf (F := Ideal) lp3 (landCols sc tg p) : EReal) * (simOf (F := Ideal) sv iv tg p : EReal)))
            (denomOf (F := Ideal) mk i : EReal)
        + cB * Ideal.div (-(0 + ∑ q : SN.Idx, (lpOf (F := Ideal) lp3 (landRows tg q) : EReal) * (mOf (F := Ideal) mk q : EReal)))
            (denomOf (F := Ideal) mk i : EReal) := by
  unfold refRes
  refine (ref_shape _ _ _ i).trans ?_
  rw [sumCols_eq G i, sumRows_eq G i]

theorem bridge (G : Good lp3 mk sv iv tg sc) :
    kerRes (F := Ideal) (fun _ => (∑ i : SNV.Idx, (lpOf (F := Ideal) lp3 i : EReal) * (wtotOf (F := Ideal) sv iv mk tg sc i : EReal) : EReal)) mk
      = refRes (F := Ideal) lp3 mk sv iv tg sc := by
  funext i
  refine (kerRes_apply _ i).trans ((congrArg (fun s : EReal => Ideal.div (-s) (denomOf (F := Ideal) mk i : EReal))
    (Finset.sum_congr rfl fun j _ => congrArg (fun x : EReal => (lpOf (F := Ideal) lp3 j : EReal) * x) (wtot_apply G j))).trans
    ((spread_eq_read (fun j : SNV.Idx => (lpOf (F := Ideal) lp3 j : EReal)) (fun p : SNJ.Idx => (simOf (F := Ideal) sv iv tg p : EReal))
      (fun q : SN.Idx => (mOf (F := Ideal) mk q : EReal)) cA cB (denomOf (F := Ideal) mk i : EReal) (landCols sc tg) (landRows tg)
      (lpOf_real G) (simOf_real G) (mOf_real G) cA_real cB_real (denom_real G i)).trans (refRes_apply G i).symm))

end Cert.WSmooth

end
-- ==== Proof.lean ====
/-
  The certificate: the two printed kernels' frames (generated), the reference's frame from its run, and the value
  claim — at the ideal instance the program that spreads the weights over the vocabulary and the program that reads
  `lp` where the weights point end with the same extended real, on the domain where every float entry is real,
  every index is in range and the mask's sum is not zero.
-/
import proofs.«413760_j5755256177154_1_alg».proof.Defs
import proofs.«413760_j5755256177154_1_alg».proof.Proof.Gen.Kernel
import proofs.«413760_j5755256177154_1_alg».proof.Proof.Gen.Kernel.Frame
import proofs.«413760_j5755256177154_1_alg».proof.Proof.Gen.KernelIdeal
import proofs.«413760_j5755256177154_1_alg».proof.Proof.Gen.KernelIdeal.Frame
import proofs.«413760_j5755256177154_1_alg».proof.Proof.Gen.ReferenceIdeal
import proofs.«413760_j5755256177154_1_alg».proof.Proof.Gen.Pre_finite_inputs
import proofs.«413760_j5755256177154_1_alg».proof.Proof.KernelRun
import proofs.«413760_j5755256177154_1_alg».proof.Proof.RefStages
import proofs.«413760_j5755256177154_1_alg».proof.Proof.PreFacts
import proofs.«413760_j5755256177154_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.WS.run (F := Ideal) m ρ)

/-- Both runs end at one value: the kernel program's at `kerRes` of the dot product, the reference's at `refRes`,
    of arguments that agree; on the precondition's domain these are equal. -/
theorem algebraic : Cert.algebraic_KernelIdeal_ReferenceIdeal := by
  intro m ρ m' ρ' hpre hagree
  refine ⟨fun c => Cert.WSmooth.kerRes (Cert.KernelIdeal.WS.accOf m c) (m ((c.tc : Thread Cert.KernelIdeal.nD Cert.KernelIdeal.τ).loc Cert.KernelIdeal.main_arg1)),
    Cert.KernelIdeal.WS.kernel_run m ρ, ?_⟩
  refine (θ_run Cert.ReferenceIdeal.defs _ _).mono (fun _ h c => ⟨(h c).1.trans ?_, (h c).2⟩)
    (Cert.ReferenceIdeal.WS.run (F := Ideal) m' ρ')
  rw [(hagree c).1, (hagree c).2.1, (hagree c).2.2.1, (hagree c).2.2.2.1, (hagree c).2.2.2.2.1,
    (hagree c).2.2.2.2.2]
  exact (Cert.WSmooth.bridge (Cert.Proof.WS.good_of_pre m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
